-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x6400000 : Shape := ⟨2, ![2, 6400000]⟩
abbrev S6400000 : Shape := ⟨1, ![6400000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : IVec S100000 32) (main_arg1 : IVec S2x6400000 32) (main_arg2 : FVec F S6400000 .f32) : IVec S_ 1 :=
  let main_v0 : FVec F S6400000 .f32 := Host.absf main_arg2
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  main_v3
-- ==== Kernel.lean ====
abbrev S100000 : Shape := ⟨1, ![100000]⟩
abbrev S2x6400000 : Shape := ⟨2, ![2, 6400000]⟩
abbrev S6400000 : Shape := ⟨1, ![6400000]⟩
abbrev S87x4 : Shape := ⟨2, ![87, 4]⟩
abbrev S4 : Shape := ⟨1, ![4]⟩
abbrev S1x6400000 : Shape := ⟨2, ![1, 6400000]⟩
abbrev S_ : Shape := ⟨0, ![]⟩
abbrev S6400000x1 : Shape := ⟨2, ![6400000, 1]⟩
abbrev S100000x1 : Shape := ⟨2, ![100000, 1]⟩
abbrev S100000x4 : Shape := ⟨2, ![100000, 4]⟩
abbrev S1x4 : Shape := ⟨2, ![1, 4]⟩
abbrev S50000x128 : Shape := ⟨2, ![50000, 128]⟩
abbrev S5000x128 : Shape := ⟨2, ![5000, 128]⟩

abbrev nBuf : Space → Nat
  | .hbm => 126
  | .vmem => 8
  | .smem => 0
  | _ => 0

abbrev bufTy : (tb : Table) → Fin (tcTables nBuf tb) → BufTy
  | .hbm, ⟨0, _⟩ => ⟨S100000, .i32⟩
  | .hbm, ⟨1, _⟩ => ⟨S2x6400000, .i32⟩
  | .hbm, ⟨2, _⟩ => ⟨S6400000, .f32⟩
  | .hbm, ⟨3, _⟩ => ⟨S87x4, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .i32⟩
  | .hbm, ⟨13, _⟩ => ⟨S100000, .i32⟩
  | .hbm, ⟨14, _⟩ => ⟨S_, .i32⟩
  | .hbm, ⟨15, _⟩ => ⟨S6400000, .i32⟩
  | .hbm, ⟨16, _⟩ => ⟨S6400000, .i1⟩
  | .hbm, ⟨17, _⟩ => ⟨S_, .i32⟩
  | .hbm, ⟨18, _⟩ => ⟨S6400000, .i32⟩
  | .hbm, ⟨19, _⟩ => ⟨S6400000, .i32⟩
  | .hbm, ⟨20, _⟩ => ⟨S6400000, .i32⟩
  | .hbm, ⟨21, _⟩ => ⟨S6400000x1, .i32⟩
  | .hbm, ⟨22, _⟩ => ⟨S_, .i32⟩
  | .hbm, ⟨23, _⟩ => ⟨S6400000, .i32⟩
  | .hbm, ⟨24, _⟩ => ⟨S100000, .i32⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000x4, .f32⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S100000x1, .i1⟩
  | .hbm, ⟨38, _⟩ => ⟨S1x4, .f32⟩
  | .hbm, ⟨39, _⟩ => ⟨S1x4, .f32⟩
  | .hbm, ⟨40, _⟩ => ⟨S100000x4, .i1⟩
  | .hbm, ⟨41, _⟩ => ⟨S100000x4, .f32⟩
  | .hbm, ⟨42, _⟩ => ⟨S100000x4, .f32⟩
  | .hbm, ⟨43, _⟩ => ⟨S100000x4, .f32⟩
  | .hbm, ⟨44, _⟩ => ⟨S_, .i32⟩
  | .hbm, ⟨45, _⟩ => ⟨S100000, .i32⟩
  | .hbm, ⟨46, _⟩ => ⟨S100000, .i1⟩
  | .hbm, ⟨47, _⟩ => ⟨S100000x1, .i1⟩
  | .hbm, ⟨48, _⟩ => ⟨S1x4, .f32⟩
  | .hbm, ⟨49, _⟩ => ⟨S1x4, .f32⟩
  | .hbm, ⟨50, _⟩ => ⟨S100000x4, .i1⟩
  | .hbm, ⟨51, _⟩ => ⟨S100000x4, .f32⟩
  | .hbm, ⟨52, _⟩ => ⟨S100000x4, .f32⟩
  | .hbm, ⟨53, _⟩ => ⟨S100000x4, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S100000x1, .i1⟩
  | .hbm, ⟨58, _⟩ => ⟨S100000x4, .i1⟩
  | .hbm, ⟨59, _⟩ => ⟨S100000x4, .f32⟩
  | .hbm, ⟨60, _⟩ => ⟨S_, .i32⟩
  | .hbm, ⟨61, _⟩ => ⟨S100000, .i32⟩
  | .hbm, ⟨62, _⟩ => ⟨S100000, .i1⟩
  | .hbm, ⟨63, _⟩ => ⟨S100000x1, .i1⟩
  | .hbm, ⟨64, _⟩ => ⟨S100000x4, .i1⟩
  | .hbm, ⟨65, _⟩ => ⟨S100000x4, .f32⟩
  | .hbm, ⟨66, _⟩ => ⟨S100000x1, .f32⟩
  | .hbm, ⟨67, _⟩ => ⟨S100000, .f32⟩
  | .hbm, ⟨68, _⟩ => ⟨S100000x1, .f32⟩
  | .hbm, ⟨69, _⟩ => ⟨S100000, .f32⟩
  | .hbm, ⟨70, _⟩ => ⟨S_, .i32⟩
  | .hbm, ⟨71, _⟩ => ⟨S6400000, .i32⟩
  | .hbm, ⟨72, _⟩ => ⟨S6400000, .i1⟩
  | .hbm, ⟨73, _⟩ => ⟨S_, .i32⟩
  | .hbm, ⟨74, _⟩ => ⟨S6400000, .i32⟩
  | .hbm, ⟨75, _⟩ => ⟨S6400000, .i32⟩
  | .hbm, ⟨76, _⟩ => ⟨S6400000, .i32⟩
  | .hbm, ⟨77, _⟩ => ⟨S6400000x1, .i32⟩
  | .hbm, ⟨78, _⟩ => ⟨S6400000, .f32⟩
  | .hbm, ⟨79, _⟩ => ⟨S_, .i32⟩
  | .hbm, ⟨80, _⟩ => ⟨S6400000, .i32⟩
  | .hbm, ⟨81, _⟩ => ⟨S6400000, .i1⟩
  | .hbm, ⟨82, _⟩ => ⟨S_, .i32⟩
  | .hbm, ⟨83, _⟩ => ⟨S6400000, .i32⟩
  | .hbm, ⟨84, _⟩ => ⟨S6400000, .i32⟩
  | .hbm, ⟨85, _⟩ => ⟨S6400000, .i32⟩
  | .hbm, ⟨86, _⟩ => ⟨S6400000x1, .i32⟩
  | .hbm, ⟨87, _⟩ => ⟨S6400000, .f32⟩
  | .hbm, ⟨88, _⟩ => ⟨S6400000, .f32⟩
  | .hbm, ⟨89, _⟩ => ⟨S6400000, .f32⟩
  | .hbm, ⟨90, _⟩ => ⟨S_, .i32⟩
  | .hbm, ⟨91, _⟩ => ⟨S6400000, .i32⟩
  | .hbm, ⟨92, _⟩ => ⟨S6400000, .i1⟩
  | .hbm, ⟨93, _⟩ => ⟨S_, .i32⟩
  | .hbm, ⟨94, _⟩ => ⟨S6400000, .i32⟩
  | .hbm, ⟨95, _⟩ => ⟨S6400000, .i32⟩
  | .hbm, ⟨96, _⟩ => ⟨S6400000, .i32⟩
  | .hbm, ⟨97, _⟩ => ⟨S6400000x1, .i32⟩
  | .hbm, ⟨98, _⟩ => ⟨S6400000, .f32⟩
  | .hbm, ⟨99, _⟩ => ⟨S_, .i32⟩
  | .hbm, ⟨100, _⟩ => ⟨S6400000, .i32⟩
  | .hbm, ⟨101, _⟩ => ⟨S6400000, .i1⟩
  | .hbm, ⟨102, _⟩ => ⟨S_, .i32⟩
  | .hbm, ⟨103, _⟩ => ⟨S6400000, .i32⟩
  | .hbm, ⟨104, _⟩ => ⟨S6400000, .i32⟩
  | .hbm, ⟨105, _⟩ => ⟨S6400000, .i32⟩
  | .hbm, ⟨106, _⟩ => ⟨S6400000x1, .i32⟩
  | .hbm, ⟨107, _⟩ => ⟨S6400000, .f32⟩
  | .hbm, ⟨108, _⟩ => ⟨S6400000, .f32⟩
  | .hbm, ⟨109, _⟩ => ⟨S6400000, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S6400000, .f32⟩
  | .hbm, ⟨115, _⟩ => ⟨S_, .f32⟩
  | .hbm, ⟨116, _⟩ => ⟨S100000, .f32⟩
  | .hbm, ⟨117, _⟩ => ⟨S_, .i32⟩
  | .hbm, ⟨118, _⟩ => ⟨S6400000, .i32⟩
  | .hbm, ⟨119, _⟩ => ⟨S6400000, .i1⟩
  | .hbm, ⟨120, _⟩ => ⟨S_, .i32⟩
  | .hbm, ⟨121, _⟩ => ⟨S6400000, .i32⟩
  | .hbm, ⟨122, _⟩ => ⟨S6400000, .i32⟩
  | .hbm, ⟨123, _⟩ => ⟨S6400000, .i32⟩
  | .hbm, ⟨124, _⟩ => ⟨S6400000x1, .i32⟩
  | .hbm, ⟨125, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_4 : Ref sig .tc := ⟨.hbm, 14, rfl⟩
abbrev main_v5 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v25 : Ref sig .tc := ⟨.hbm, 43, rfl⟩
abbrev main_c_10 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_c_11 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call2_v0 : Ref sig .tc := ⟨.hbm, 58, rfl⟩
abbrev main_v35 : Ref sig .tc := ⟨.hbm, 59, rfl⟩
abbrev main_c_12 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_v52 : Ref sig .tc := ⟨.hbm, 81, rfl⟩
abbrev main_c_16 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_c_20 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_21 : Ref sig .tc := ⟨.hbm, 115, rfl⟩
abbrev main_v81 : Ref sig .tc := ⟨.hbm, 116, rfl⟩
abbrev main_c_22 : Ref sig .tc := ⟨.hbm, 117, rfl⟩
abbrev main_v82 : Ref sig .tc := ⟨.hbm, 118, rfl⟩
abbrev main_v83 : Ref sig .tc := ⟨.hbm, 119, rfl⟩
abbrev main_c_23 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S100000_S100000x1_0 : S100000.BroadcastsInDim S100000x1 (![0] : Fin 1 → Fin S100000x1.rank)
  bcast_S4_S1x4_1 : S4.BroadcastsInDim S1x4 (![1] : Fin 1 → Fin S1x4.rank)
  bcast_S100000x1_S100000x4_0_1 : S100000x1.BroadcastsInDim S100000x4 (![0, 1] : Fin 2 → Fin S100000x4.rank)
  bcast_S1x4_S100000x4_0_1 : S1x4.BroadcastsInDim S100000x4 (![0, 1] : Fin 2 → Fin S100000x4.rank)
  slices_S100000x4_S100000x1_0_2 : S100000x4.Slices ![0, 2] S100000x1
  shapeCasts_S100000x1_S100000 : S100000x1.ShapeCasts S100000
  slices_S100000x4_S100000x1_0_3 : S100000x4.Slices ![0, 3] S100000x1
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  natLt_1_32 : 1 < 32
  shapeCasts_S50000x128_S6400000 : S50000x128.ShapeCasts S6400000
  scatter_S100000_S6400000x1_S6400000_n_0_0_1_wf : ScatterDims.WF S100000 S6400000x1 S6400000 [] [0] [0] 1
  gather_S87x4_S100000x1_S100000x4_1_0_n_n_0_1_14_wf : GatherDims.WF S87x4 S100000x1 S100000x4 [1] [0] [] [0] [] 1 ![1, 4]
  gather_S100000_S6400000x1_S6400000_n_0_n_n_0_1_1_wf : GatherDims.WF S100000 S6400000x1 S6400000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S87x4_S100000x1_S100000x4_1_0_n_n_0_1_14 : GatherDims S87x4 S100000x1 S100000x4 where
  offsetDims := [1]
  collapsedSliceDims := [0]
  operandBatchingDims := []
  startIndicesBatchingDims := []
  startIndexMap := [0]
  indexVectorDim := 1
  sliceSizes := ![1, 4]
  wf := gather_S87x4_S100000x1_S100000x4_1_0_n_n_0_1_14_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

abbrev win0_0 : Pipeline.Window sig grid0 :=
  Pipeline.Window.ofSpec (Memref.whole main_v76) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v79) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000 : Shape := ⟨1, ![100000]⟩
abbrev S2x6400000 : Shape := ⟨2, ![2, 6400000]⟩
abbrev S6400000 : Shape := ⟨1, ![6400000]⟩
abbrev S87x4 : Shape := ⟨2, ![87, 4]⟩
abbrev S4 : Shape := ⟨1, ![4]⟩
abbrev S1x6400000 : Shape := ⟨2, ![1, 6400000]⟩
abbrev S_ : Shape := ⟨0, ![]⟩
abbrev S6400000x1 : Shape := ⟨2, ![6400000, 1]⟩
abbrev S100000x1 : Shape := ⟨2, ![100000, 1]⟩
abbrev S100000x4 : Shape := ⟨2, ![100000, 4]⟩
abbrev S1x4 : Shape := ⟨2, ![1, 4]⟩

abbrev nBuf : Space → Nat
  | .hbm => 193
  | .vmem => 0
  | .smem => 0
  | _ => 0

abbrev hbmTy0_0 (i : Nat) : BufTy := match i % 128 with
  | 0 => ⟨S100000, .i32⟩
  | 1 => ⟨S2x6400000, .i32⟩
  | 2 => ⟨S6400000, .f32⟩
  | 3 => ⟨S87x4, .f32⟩
  | 4 => ⟨S4, .f32⟩
  | 5 => ⟨S4, .f32⟩
  | 6 => ⟨S4, .f32⟩
  | 7 => ⟨S4, .f32⟩
  | 8 => ⟨S1x6400000, .i32⟩
  | 9 => ⟨S6400000, .i32⟩
  | 10 => ⟨S1x6400000, .i32⟩
  | 11 => ⟨S6400000, .i32⟩
  | 12 => ⟨S_, .i32⟩
  | 13 => ⟨S100000, .i32⟩
  | 14 => ⟨S_, .i32⟩
  | 15 => ⟨S6400000, .i32⟩
  | 16 => ⟨S6400000, .i1⟩
  | 17 => ⟨S_, .i32⟩
  | 18 => ⟨S6400000, .i32⟩
  | 19 => ⟨S6400000, .i32⟩
  | 20 => ⟨S6400000, .i32⟩
  | 21 => ⟨S6400000x1, .i32⟩
  | 22 => ⟨S_, .i32⟩
  | 23 => ⟨S6400000, .i32⟩
  | 24 => ⟨S100000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x4, .f32⟩
  | 34 => ⟨S_, .i32⟩
  | 35 => ⟨S100000, .i32⟩
  | 36 => ⟨S100000, .i1⟩
  | 37 => ⟨S100000x1, .i1⟩
  | 38 => ⟨S1x4, .f32⟩
  | 39 => ⟨S1x4, .f32⟩
  | 40 => ⟨S100000x4, .i1⟩
  | 41 => ⟨S100000x4, .f32⟩
  | 42 => ⟨S100000x4, .f32⟩
  | 43 => ⟨S100000x4, .f32⟩
  | 44 => ⟨S_, .i32⟩
  | 45 => ⟨S100000, .i32⟩
  | 46 => ⟨S100000, .i1⟩
  | 47 => ⟨S100000x1, .i1⟩
  | 48 => ⟨S1x4, .f32⟩
  | 49 => ⟨S1x4, .f32⟩
  | 50 => ⟨S100000x4, .i1⟩
  | 51 => ⟨S100000x4, .f32⟩
  | 52 => ⟨S100000x4, .f32⟩
  | 53 => ⟨S100000x4, .f32⟩
  | 54 => ⟨S_, .i32⟩
  | 55 => ⟨S100000, .i32⟩
  | 56 => ⟨S100000, .i1⟩
  | 57 => ⟨S100000x1, .i1⟩
  | 58 => ⟨S100000x4, .i1⟩
  | 59 => ⟨S100000x4, .f32⟩
  | 60 => ⟨S_, .i32⟩
  | 61 => ⟨S100000, .i32⟩
  | 62 => ⟨S100000, .i1⟩
  | 63 => ⟨S100000x1, .i1⟩
  | 64 => ⟨S100000x4, .i1⟩
  | 65 => ⟨S100000x4, .f32⟩
  | 66 => ⟨S100000x1, .f32⟩
  | 67 => ⟨S100000, .f32⟩
  | 68 => ⟨S100000x1, .f32⟩
  | 69 => ⟨S100000, .f32⟩
  | 70 => ⟨S_, .i32⟩
  | 71 => ⟨S6400000, .i32⟩
  | 72 => ⟨S6400000, .i1⟩
  | 73 => ⟨S_, .i32⟩
  | 74 => ⟨S6400000, .i32⟩
  | 75 => ⟨S6400000, .i32⟩
  | 76 => ⟨S6400000, .i32⟩
  | 77 => ⟨S6400000x1, .i32⟩
  | 78 => ⟨S6400000, .f32⟩
  | 79 => ⟨S_, .i32⟩
  | 80 => ⟨S6400000, .i32⟩
  | 81 => ⟨S6400000, .i1⟩
  | 82 => ⟨S_, .i32⟩
  | 83 => ⟨S6400000, .i32⟩
  | 84 => ⟨S6400000, .i32⟩
  | 85 => ⟨S6400000, .i32⟩
  | 86 => ⟨S6400000x1, .i32⟩
  | 87 => ⟨S6400000, .f32⟩
  | 88 => ⟨S6400000, .f32⟩
  | 89 => ⟨S6400000, .f32⟩
  | 90 => ⟨S_, .i32⟩
  | 91 => ⟨S6400000, .i32⟩
  | 92 => ⟨S6400000, .i1⟩
  | 93 => ⟨S_, .i32⟩
  | 94 => ⟨S6400000, .i32⟩
  | 95 => ⟨S6400000, .i32⟩
  | 96 => ⟨S6400000, .i32⟩
  | 97 => ⟨S6400000x1, .i32⟩
  | 98 => ⟨S6400000, .f32⟩
  | 99 => ⟨S_, .i32⟩
  | 100 => ⟨S6400000, .i32⟩
  | 101 => ⟨S6400000, .i1⟩
  | 102 => ⟨S_, .i32⟩
  | 103 => ⟨S6400000, .i32⟩
  | 104 => ⟨S6400000, .i32⟩
  | 105 => ⟨S6400000, .i32⟩
  | 106 => ⟨S6400000x1, .i32⟩
  | 107 => ⟨S6400000, .f32⟩
  | 108 => ⟨S6400000, .f32⟩
  | 109 => ⟨S6400000, .f32⟩
  | 110 => ⟨S6400000, .f32⟩
  | 111 => ⟨S_, .f32⟩
  | 112 => ⟨S6400000, .f32⟩
  | 113 => ⟨S6400000, .f32⟩
  | 114 => ⟨S_, .f32⟩
  | 115 => ⟨S6400000, .f32⟩
  | 116 => ⟨S6400000, .f32⟩
  | 117 => ⟨S6400000, .f32⟩
  | 118 => ⟨S_, .f32⟩
  | 119 => ⟨S6400000, .f32⟩
  | 120 => ⟨S6400000, .f32⟩
  | 121 => ⟨S_, .f32⟩
  | 122 => ⟨S6400000, .f32⟩
  | 123 => ⟨S6400000, .f32⟩
  | 124 => ⟨S_, .f32⟩
  | 125 => ⟨S6400000, .f32⟩
  | 126 => ⟨S6400000, .f32⟩
  | 127 => ⟨S_, .f32⟩
  | _ => ⟨S100000, .i32⟩

abbrev hbmTy0_1 (i : Nat) : BufTy := match i % 128 with
  | 0 => ⟨S6400000, .f32⟩
  | 1 => ⟨S6400000, .f32⟩
  | 2 => ⟨S6400000, .f32⟩
  | 3 => ⟨S6400000, .f32⟩
  | 4 => ⟨S6400000, .f32⟩
  | 5 => ⟨S6400000, .f32⟩
  | 6 => ⟨S6400000, .f32⟩
  | 7 => ⟨S6400000, .f32⟩
  | 8 => ⟨S6400000, .f32⟩
  | 9 => ⟨S6400000, .f32⟩
  | 10 => ⟨S6400000, .f32⟩
  | 11 => ⟨S6400000, .f32⟩
  | 12 => ⟨S_, .f32⟩
  | 13 => ⟨S6400000, .f32⟩
  | 14 => ⟨S6400000, .f32⟩
  | 15 => ⟨S_, .f32⟩
  | 16 => ⟨S6400000, .f32⟩
  | 17 => ⟨S6400000, .f32⟩
  | 18 => ⟨S_, .f32⟩
  | 19 => ⟨S6400000, .f32⟩
  | 20 => ⟨S6400000, .i1⟩
  | 21 => ⟨S6400000, .f32⟩
  | 22 => ⟨S6400000, .f32⟩
  | 23 => ⟨S6400000, .f32⟩
  | 24 => ⟨S_, .f32⟩
  | 25 => ⟨S6400000, .f32⟩
  | 26 => ⟨S6400000, .f32⟩
  | 27 => ⟨S_, .f32⟩
  | 28 => ⟨S6400000, .f32⟩
  | 29 => ⟨S6400000, .f32⟩
  | 30 => ⟨S_, .f32⟩
  | 31 => ⟨S6400000, .f32⟩
  | 32 => ⟨S6400000, .f32⟩
  | 33 => ⟨S6400000, .f32⟩
  | 34 => ⟨S6400000, .f32⟩
  | 35 => ⟨S_, .f32⟩
  | 36 => ⟨S6400000, .f32⟩
  | 37 => ⟨S6400000, .f32⟩
  | 38 => ⟨S6400000, .f32⟩
  | 39 => ⟨S6400000, .f32⟩
  | 40 => ⟨S6400000, .f32⟩
  | 41 => ⟨S_, .f32⟩
  | 42 => ⟨S6400000, .f32⟩
  | 43 => ⟨S6400000, .i1⟩
  | 44 => ⟨S6400000, .f32⟩
  | 45 => ⟨S6400000, .f32⟩
  | 46 => ⟨S_, .f32⟩
  | 47 => ⟨S_, .f32⟩
  | 48 => ⟨S6400000, .f32⟩
  | 49 => ⟨S6400000, .f32⟩
  | 50 => ⟨S6400000, .f32⟩
  | 51 => ⟨S_, .f32⟩
  | 52 => ⟨S100000, .f32⟩
  | 53 => ⟨S_, .f32⟩
  | 54 => ⟨S6400000, .f32⟩
  | 55 => ⟨S6400000, .f32⟩
  | 56 => ⟨S_, .i32⟩
  | 57 => ⟨S6400000, .i32⟩
  | 58 => ⟨S6400000, .i1⟩
  | 59 => ⟨S_, .i32⟩
  | 60 => ⟨S6400000, .i32⟩
  | 61 => ⟨S6400000, .i32⟩
  | 62 => ⟨S6400000, .i32⟩
  | 63 => ⟨S6400000x1, .i32⟩
  | 64 => ⟨S100000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_4 : Ref sig .tc := ⟨.hbm, 14, rfl⟩
abbrev main_v5 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v25 : Ref sig .tc := ⟨.hbm, 43, rfl⟩
abbrev main_c_10 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_c_11 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call2_v0 : Ref sig .tc := ⟨.hbm, 58, rfl⟩
abbrev main_v35 : Ref sig .tc := ⟨.hbm, 59, rfl⟩
abbrev main_c_12 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_v52 : Ref sig .tc := ⟨.hbm, 81, rfl⟩
abbrev main_c_16 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_c_20 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_21 : Ref sig .tc := ⟨.hbm, 111, rfl⟩
abbrev main_v77 : Ref sig .tc := ⟨.hbm, 112, rfl⟩
abbrev main_v78 : Ref sig .tc := ⟨.hbm, 113, rfl⟩
abbrev main_cst_22 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_23 : Ref sig .tc := ⟨.hbm, 118, rfl⟩
abbrev main_v82 : Ref sig .tc := ⟨.hbm, 119, rfl⟩
abbrev main_v83 : Ref sig .tc := ⟨.hbm, 120, rfl⟩
abbrev main_cst_24 : Ref sig .tc := ⟨.hbm, 121, rfl⟩
abbrev main_v84 : Ref sig .tc := ⟨.hbm, 122, rfl⟩
abbrev main_v85 : Ref sig .tc := ⟨.hbm, 123, rfl⟩
abbrev main_cst_25 : Ref sig .tc := ⟨.hbm, 124, rfl⟩
abbrev main_v86 : Ref sig .tc := ⟨.hbm, 125, rfl⟩
abbrev main_v87 : Ref sig .tc := ⟨.hbm, 126, rfl⟩
abbrev main_cst_26 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_27 : Ref sig .tc := ⟨.hbm, 140, rfl⟩
abbrev main_v100 : Ref sig .tc := ⟨.hbm, 141, rfl⟩
abbrev main_v101 : Ref sig .tc := ⟨.hbm, 142, rfl⟩
abbrev main_cst_28 : Ref sig .tc := ⟨.hbm, 143, rfl⟩
abbrev main_v102 : Ref sig .tc := ⟨.hbm, 144, rfl⟩
abbrev main_v103 : Ref sig .tc := ⟨.hbm, 145, rfl⟩
abbrev main_cst_29 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_30 : Ref sig .tc := ⟨.hbm, 152, rfl⟩
abbrev main_v109 : Ref sig .tc := ⟨.hbm, 153, rfl⟩
abbrev main_v110 : Ref sig .tc := ⟨.hbm, 154, rfl⟩
abbrev main_cst_31 : Ref sig .tc := ⟨.hbm, 155, rfl⟩
abbrev main_v111 : Ref sig .tc := ⟨.hbm, 156, rfl⟩
abbrev main_v112 : Ref sig .tc := ⟨.hbm, 157, rfl⟩
abbrev main_cst_32 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_33 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_34 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_35 : Ref sig .tc := ⟨.hbm, 174, rfl⟩
abbrev main_call4_v0 : Ref sig .tc := ⟨.hbm, 175, rfl⟩
abbrev main_call4_v1 : Ref sig .tc := ⟨.hbm, 176, rfl⟩
abbrev main_v126 : Ref sig .tc := ⟨.hbm, 177, rfl⟩
abbrev main_v127 : Ref sig .tc := ⟨.hbm, 178, rfl⟩
abbrev main_cst_36 : Ref sig .tc := ⟨.hbm, 179, rfl⟩
abbrev main_v128 : Ref sig .tc := ⟨.hbm, 180, rfl⟩
abbrev main_cst_37 : Ref sig .tc := ⟨.hbm, 181, rfl⟩
abbrev main_v129 : Ref sig .tc := ⟨.hbm, 182, rfl⟩
abbrev main_v130 : Ref sig .tc := ⟨.hbm, 183, rfl⟩
abbrev main_c_38 : Ref sig .tc := ⟨.hbm, 184, rfl⟩
abbrev main_v131 : Ref sig .tc := ⟨.hbm, 185, rfl⟩
abbrev main_v132 : Ref sig .tc := ⟨.hbm, 186, rfl⟩
abbrev main_c_39 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S100000_S100000x1_0 : S100000.BroadcastsInDim S100000x1 (![0] : Fin 1 → Fin S100000x1.rank)
  bcast_S4_S1x4_1 : S4.BroadcastsInDim S1x4 (![1] : Fin 1 → Fin S1x4.rank)
  bcast_S100000x1_S100000x4_0_1 : S100000x1.BroadcastsInDim S100000x4 (![0, 1] : Fin 2 → Fin S100000x4.rank)
  bcast_S1x4_S100000x4_0_1 : S1x4.BroadcastsInDim S100000x4 (![0, 1] : Fin 2 → Fin S100000x4.rank)
  slices_S100000x4_S100000x1_0_2 : S100000x4.Slices ![0, 2] S100000x1
  shapeCasts_S100000x1_S100000 : S100000x1.ShapeCasts S100000
  slices_S100000x4_S100000x1_0_3 : S100000x4.Slices ![0, 3] S100000x1
  scatter_S100000_S6400000x1_S6400000_n_0_0_1_wf : ScatterDims.WF S100000 S6400000x1 S6400000 [] [0] [0] 1
  gather_S87x4_S100000x1_S100000x4_1_0_n_n_0_1_14_wf : GatherDims.WF S87x4 S100000x1 S100000x4 [1] [0] [] [0] [] 1 ![1, 4]
  gather_S100000_S6400000x1_S6400000_n_0_n_n_0_1_1_wf : GatherDims.WF S100000 S6400000x1 S6400000 [] [0] [] [0] [] 1 ![1]

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S87x4_S100000x1_S100000x4_1_0_n_n_0_1_14 : GatherDims S87x4 S100000x1 S100000x4 where
  offsetDims := [1]
  collapsedSliceDims := [0]
  operandBatchingDims := []
  startIndicesBatchingDims := []
  startIndexMap := [0]
  indexVectorDim := 1
  sliceSizes := ![1, 4]
  wf := gather_S87x4_S100000x1_S100000x4_1_0_n_n_0_1_14_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

class Facts : Prop extends Facts₀ where

variable [Facts]
-- ==== Proof.EdgeEnergy.lean ====
/-
  The per-edge dispersion energy, as a function of three extended reals: the pair coefficient `c6`, the pair radius
  `rij` and the edge length `r`.  Both programs compute, edge by edge,

      ½ · ( -c6 / (rij⁶ + r⁶) · 1 / (1 + 6 · ρ¹⁴) ) · env(r),      ρ = (0.4 · √rij + 4) / r,

  with `env(r) = 1` below the switching radius 8 and the degree-8 polynomial `1 - 28x⁶ + 48x⁷ - 21x⁸` in
  `x = (r - 8) / 2`, cut to `0` from `x = 1` on, above it.  They differ in four spellings:
  the kernel raises `ρ` to the 14th power by repeated squaring (`ρ² · ρ⁴` times `ρ⁴ · ρ⁴`) where the reference
  calls the real power function at the exponent `14.0`; the kernel negates by subtracting from zero; it reads the
  cut's truth value through a widening to 32 bits and a signed conversion where the reference converts the bit
  unsigned; and it multiplies by ½ before the envelope where the reference does so after.
  On the extended reals the second to fourth are identities (`0 - a = -a`; a bit is `0` or `1` either way;
  multiplication is associative).  The first is NOT an identity of the two powers: at `ρ = ⊥` the product of
  fourteen copies is `⊤` while the power function answers `⊥`.  But the damping factor `1 / (1 + 6 · p)` is `0`
  at `p = ⊤` and at `p = ⊥` alike, and on a finite `ρ` and at `ρ = ⊤` the two powers agree (`Real.rpow` at a
  natural exponent is the monoid power, negative bases included): so the damping factors are equal everywhere.
-/
import Idealize.ShloMosaic.PureOps.Ideal
import Idealize.ShloMosaic.PureOps.Ideal.Laws

noncomputable section

namespace Cert.Edge

open Idealize.ShloMosaic

/-- An f32 pattern as the extended real it denotes. -/
abbrev lit (w : BitVec 32) : EReal := Ideal.ofBits .f32 w

/-! ## The constants whose VALUE matters (the others are the same pattern on both sides) -/

theorem lit_one : lit 0x3F800000#32 = ((1 : ℝ) : EReal) := by
  simp [lit, Ideal.ofBits, Ideal.ieee, -EReal.coe_mul]; norm_num
theorem lit_six : lit 0x40C00000#32 = ((6 : ℝ) : EReal) := by
  simp [lit, Ideal.ofBits, Ideal.ieee, -EReal.coe_mul]; norm_num
theorem lit_fourteen : lit 0x41600000#32 = ((14 : ℝ) : EReal) := by
  simp [lit, Ideal.ofBits, Ideal.ieee, -EReal.coe_mul]; norm_num
theorem lit_zero : lit 0x00000000#32 = 0 := Ideal.ofBits_zero_f32

/-! ## The pieces -/

/-- The sixth power as both programs take it: `a² · (a² · a²)`. -/
def pow6 (a : EReal) : EReal := (a * a) * ((a * a) * (a * a))

/-- The fourteenth power by repeated squaring, the kernel's: `(a² · a⁴) · (a⁴ · a⁴)`. -/
def pow14 (a : EReal) : EReal :=
  ((a * a) * ((a * a) * (a * a))) * (((a * a) * (a * a)) * ((a * a) * (a * a)))

/-- The damping ratio `(0.4 · √rij + 4) / r`. -/
def ratio (rij r : EReal) : EReal :=
  Ideal.div (lit 0x3ECCCCCD#32 * Ideal.sqrt rij + lit 0x40800000#32) r

/-- The damping factor of a power `p` of the ratio: `1 / (1 + 6 · p)`. -/
def damp (p : EReal) : EReal :=
  Ideal.div (lit 0x3F800000#32) (lit 0x3F800000#32 + lit 0x40C00000#32 * p)

/-- The undamped pair energy times the damping factor, from the NEGATED coefficient `n`. -/
def pair (n rij r fd : EReal) : EReal := Ideal.div n (pow6 rij + pow6 r) * fd

/-- The cutoff variable `(r - 8) / 2`. -/
def cutvar (r : EReal) : EReal := Ideal.div (r - lit 0x41000000#32) (lit 0x40000000#32)

/-- The polynomial `1 - 28x⁶ + 48x⁶·x - 21x⁶·x·x`, in the programs' own order of operations. -/
def poly (x : EReal) : EReal :=
  lit 0x3F800000#32 - lit 0x41E00000#32 * pow6 x + lit 0x42400000#32 * pow6 x * x
    - lit 0x41A80000#32 * pow6 x * x * x

/-- The envelope from the cut's truth value `b` already converted to a float: `1` below the switching radius,
    the polynomial times the converted bit above it. -/
def env (r b : EReal) : EReal :=
  Scalar.select (Ideal.cmp .olt r (lit 0x41000000#32)) (lit 0x3F800000#32) (poly (cutvar r) * b)

/-- The cut `x < 1`, one bit. -/
def cutbit (r : EReal) : BitVec 1 := Ideal.cmp .olt (cutvar r) (lit 0x3F800000#32)

/-- One edge's energy as the KERNEL spells it. -/
def kernelEnergy (c6 rij r : EReal) : EReal :=
  (lit 0x3F000000#32 * pair (lit 0x00000000#32 - c6) rij r (damp (pow14 (ratio rij r))))
    * env r ((((cutbit r).setWidth 32).toInt : ℝ) : EReal)

/-- One edge's energy as the REFERENCE spells it. -/
def referenceEnergy (c6 rij r : EReal) : EReal :=
  lit 0x3F000000#32 * (pair (-c6) rij r (damp (Ideal.pow (ratio rij r) (lit 0x41600000#32)))
    * env r ((((cutbit r).toNat : ℝ)) : EReal))

/-! ## The two spellings agree -/

/-- A bit widened to 32 bits and read signed is the bit read unsigned. -/
theorem bit_signed_eq_unsigned (b : BitVec 1) : ((b.setWidth 32).toInt : ℝ) = (b.toNat : ℝ) := by
  have h : b = 0#1 ∨ b = 1#1 := by
    have := b.isLt; rcases b with ⟨⟨n, hn⟩⟩
    have : n = 0 ∨ n = 1 := by omega
    rcases this with rfl | rfl <;> [left; right] <;> rfl
  rcases h with rfl | rfl <;> simp

/-- The damping factor does not tell the fourteen-fold product from the power function. -/
theorem damp_pow14 (a : EReal) : damp (pow14 a) = damp (Ideal.pow a (lit 0x41600000#32)) := by
  rw [lit_fourteen]
  induction a using EReal.rec with
  | bot =>
    have h1 : pow14 ⊥ = ⊤ := by simp [pow14, EReal.bot_mul_bot, EReal.top_mul_top]
    rw [h1, Ideal.pow_bot]
    unfold damp
    rw [lit_one, lit_six, EReal.coe_mul_top_of_pos (by norm_num), EReal.coe_mul_bot_of_pos (by norm_num),
      EReal.coe_add_top, EReal.add_bot]
    simp [Ideal.div]
  | top =>
    have h1 : pow14 ⊤ = ⊤ := by simp [pow14, EReal.top_mul_top]
    rw [h1, Ideal.pow_top]
    simp
  | coe x =>
    have h1 : pow14 (x : EReal) = ((x ^ 14 : ℝ) : EReal) := by
      unfold pow14; rw [← EReal.coe_mul, ← EReal.coe_mul, ← EReal.coe_mul, ← EReal.coe_mul, ← EReal.coe_mul]
      congr 1; ring
    have h2 : Ideal.pow (x : EReal) ((14 : ℝ) : EReal) = ((x ^ 14 : ℝ) : EReal) := by
      rw [Ideal.pow_coe_coe]
      congr 1
      have : (14 : ℝ) = ((14 : ℕ) : ℝ) := by norm_num
      rw [this]; exact Real.rpow_natCast x 14
    rw [h1, h2]

/-- Edge by edge the two programs compute one extended real. -/
theorem kernelEnergy_eq (c6 rij r : EReal) : kernelEnergy c6 rij r = referenceEnergy c6 rij r := by
  unfold kernelEnergy referenceEnergy
  rw [bit_signed_eq_unsigned, damp_pow14, lit_zero, zero_sub, mul_assoc]

end Cert.Edge

end
-- ==== Proof.KernelValue.lean ====
/-
  The kernel program's value.  The host prefix gathers, per edge, a pair coefficient and a pair radius; the one
  pipelined region maps the per-edge energy over the [50000,128] re-laying of the three edge arrays, ten row blocks
  of 5000 rows each; the host suffix lays the result back flat and scatter-adds it onto the receivers.
-/
import proofs.«401150_j84207128805710_3_alg».proof.Proof.Gen.KernelIdeal.Frame
import proofs.«401150_j84207128805710_3_alg».proof.Proof.EdgeEnergy
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.EdgeValue

open Cert.KernelIdeal Cert.KernelIdeal.Gen

theorem hz : (![0, 0] : Fin 2 → Nat) = fun _ => 0 := funext fun a => by fin_cases a <;> rfl

/-- The body's one store, entry by entry: the per-edge energy of the three loaded blocks' entries. -/
theorem out_apply (x0 x1 x2 : Vec Ideal S5000x128 .f32) (j : S5000x128.Idx) :
    Gen.out0_3 (F := Ideal) x0 x1 x2 j = Cert.Edge.kernelEnergy (x0 j) (x1 j) (x2 j) := by
  unfold Gen.out0_3
  rw [View.canon_unit_zero hz]
  simp only [View.ld_unit_zero (S := S5000x128) hz]
  unfold k0_pay1 k0_pay3 k0_pay6 k0_pay5 k0_pay4 k0_pay2
  simp only [shapeCast_self]
  show _ = Cert.Edge.kernelEnergy (x0 j) (x1 j) (x2 j)
  unfold Cert.Edge.kernelEnergy Cert.Edge.pair Cert.Edge.damp Cert.Edge.pow14 Cert.Edge.ratio Cert.Edge.env Cert.Edge.poly Cert.Edge.cutvar Cert.Edge.cutbit Cert.Edge.pow6 Cert.Edge.lit
  rfl

variable (m : (ℓ : Loc nD τ sig) → Buf (Elt Ideal) ℓ) (ρ : Dev nD → PrngReg)

/-- The three re-laid edge arrays as the region finds them, at their literal type. -/
abbrev c6Arr (c : Dev nD) : S50000x128.Idx → EReal := Gen.V m c main_v76
abbrev rijArr (c : Dev nD) : S50000x128.Idx → EReal := Gen.V m c main_v77
abbrev rArr (c : Dev nD) : S50000x128.Idx → EReal := Gen.V m c main_v78

/-- What the output array ends holding: the per-edge energy of the three re-laid arrays, entry by entry. -/
abbrev energyArr (c : Dev nD) : S50000x128.Idx → EReal :=
  fun i => Cert.Edge.kernelEnergy (c6Arr m c i) (rijArr m c i) (rArr m c i)

/-- All four windows move together: block row `t`, block column `0`. -/
theorem index_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) = t.val
    ∧ win0_3.index t (1 : Fin 2) = 0 :=
  (by decide +kernel : ∀ t : Fin grid0.N, _)

theorem out_eq (x0 x1 x2 : Vec Ideal S5000x128 .f32) :
    Gen.out0_3 (F := Ideal) x0 x1 x2 = fun j => Cert.Edge.kernelEnergy (x0 j) (x1 j) (x2 j) := funext (out_apply x0 x1 x2)

/-- A pointwise function of the three input blocks at point `t`, cut to what is written back, is block `t` of the
    same function of the three arrays: the four windows sit at the same place of their arrays. -/
theorem blocks_eq (E : EReal → EReal → EReal → EReal) (A0 A1 A2 : S50000x128.Idx → EReal) (t : Fin cfg0.N) :
    (cfg0.win 3).cut (grid0.coords t) (fun j : S5000x128.Idx => E (((cfg0.win 0).blk t).view.read (Elt Ideal) A0 j) (((cfg0.win 1).blk t).view.read (Elt Ideal) A1 j) (((cfg0.win 2).blk t).view.read (Elt Ideal) A2 j))
      = ((cfg0.win 3).blk t).view.read (Elt Ideal) (fun i : S50000x128.Idx => E (A0 i) (A1 i) (A2 i)) := by
  obtain ⟨e0, e1, e2, e3, e4, e5, e6, e7⟩ := index_facts t
  funext j
  show E (A0 (((cfg0.win 0).blk t).view.emb j)) (A1 (((cfg0.win 1).blk t).view.emb j)) (A2 (((cfg0.win 2).blk t).view.emb j))
     = E (A0 (((cfg0.win 3).blk t).view.emb j)) (A1 (((cfg0.win 3).blk t).view.emb j)) (A2 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  rw [h0, h1, h2]

/-- What point `t` writes back is block `t` of the energy array. -/
theorem flushed_eq (c : Dev nD) (t : Fin cfg0.N) :
    (dats m 0 c).flushed 3 t = ((cfg0.win 3).blk t).view.read (Elt Ideal) (energyArr m c) := by
  show (cfg0.win 3).cut (grid0.coords t) ((dats m 0 c).after 3 t) = _
  rw [after0_3, out_eq (iblk m c 0 t) (iblk m c 1 t) (iblk m c 2 t)]
  exact blocks_eq Cert.Edge.kernelEnergy (c6Arr m c) (rijArr m c) (rArr m c) t

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v79).slice (win0_3.rect t)).set ↔ _
  rw [View.set_slice_whole, Rect.mem_set_unit]
  exact Iff.rfl

/-- The ten row blocks tile the array: row `r` is in block `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e6, e7⟩ := index_facts t
  have e6' : win0_3.index t (0 : Fin 2) = (i 0).val / 5000 := e6
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the run is the energy array. -/
theorem final (c : Dev nD) : (dats m 0 c).arrAt 3 cfg0.N = energyArr m c :=
  (dats m 0 c).arrAt_eq_of_cover 3 (energyArr m c) (fun t _ => flushed_eq m c t) cover

/-! ## The host operations around the region -/

/-- The three arrays the region reads are the flat per-edge arrays laid out in rows of 128: the last three host
    operations before the region are reshapes, and nothing after them rewrites their operands. -/
theorem relaid (c : Dev nD) :
    (Gen.V m c main_v76 : S50000x128.Idx → EReal) = shapeCast S50000x128 (Gen.V m c main_v59 : S6400000.Idx → EReal) shapeCasts_S6400000_S50000x128
    ∧ (Gen.V m c main_v77 : S50000x128.Idx → EReal) = shapeCast S50000x128 (Gen.V m c main_v75 : S6400000.Idx → EReal) shapeCasts_S6400000_S50000x128
    ∧ (Gen.V m c main_v78 : S50000x128.Idx → EReal) = shapeCast S50000x128 (Gen.V m c main_arg2 : S6400000.Idx → EReal) shapeCasts_S6400000_S50000x128 := by
  dsimp only [Gen.V, Gen.V0]
  simp only [hostOps0, hostOps0_1, hostOps0_2, hostOps0_3, hostOps0_4, hostOps0_5, hostOps0_6, hostOps0_7, hostOps0_8, List.flatten_cons, List.flatten_nil, List.append_nil, List.cons_append,
      List.nil_append, StableHlo.after_cons, StableHlo.after_nil]
  refine ⟨?_, ?_, ?_⟩
  all_goals
    repeat (first | rw [StableHlo.reshape_result] | (rw [StableHlo.reshape_result_ne]; rotate_left; decide))
  all_goals rfl

/-- The per-edge energy over the flat edge arrays: the pair coefficient, the pair radius, the edge length. -/
abbrev edgeEnergy (c : Dev nD) : S6400000.Idx → EReal :=
  fun e => Cert.Edge.kernelEnergy ((Gen.V m c main_v59 : S6400000.Idx → EReal) e) ((Gen.V m c main_v75 : S6400000.Idx → EReal) e)
    ((m ((c.tc : Thread nD τ).loc main_arg2) : S6400000.Idx → EReal) e)

/-- The energy array is the flat per-edge energy laid out in rows of 128. -/
theorem energyArr_eq (c : Dev nD) :
    energyArr m c = shapeCast S50000x128 (edgeEnergy m c) shapeCasts_S6400000_S50000x128 := by
  obtain ⟨e76, e77, e78⟩ := relaid m c
  funext i
  show Cert.Edge.kernelEnergy ((Gen.V m c main_v76 : S50000x128.Idx → EReal) i) ((Gen.V m c main_v77 : S50000x128.Idx → EReal) i) ((Gen.V m c main_v78 : S50000x128.Idx → EReal) i) = _
  rw [e76, e77, e78, Gen.V_main_arg2]
  rfl

/-- The twelve host operations after the region, composed: the receivers' indices normalised (a negative index counts
    from the end), and the flat per-edge values scatter-added onto a zero vector at them. -/
def tail (v3 : IVec S6400000 32) (upd : FVec Ideal S6400000 .f32) : FVec Ideal S100000 .f32 :=
  Host.scatterAdd (F := Ideal) scatter_S100000_S6400000x1_S6400000_n_0_0_1
    (broadcastInDim S100000 ![] bcast_S_S100000 (constant (F := Ideal) S_ .f32 0x00000000#32))
    (broadcastInDim S6400000x1 ![0] bcast_S6400000_S6400000x1_0
      (select (cmpi .slt v3 (broadcastInDim S6400000 ![] bcast_S_S6400000 (constantI S_ 32 0#32)))
        (addi v3 (broadcastInDim S6400000 ![] bcast_S_S6400000 (constantI S_ 32 100000#32)))
        v3))
    upd

/-- What the region leaves in its output array, as the lines after it find it. -/
theorem left_arr (c : Dev nD) :
    Pipeline.withArrays spec0 c (V0 m c) (fun w => (dats m 0 c).arrAt w cfg0.N) (Proc.devRef .tc (Pipeline.arrRef spec0 3))
      = (dats m 0 c).arrAt 3 cfg0.N :=
  Pipeline.withArrays_arr spec0 launch0.win.arr_inj c (V0 m c) (fun w => (dats m 0 c).arrAt w cfg0.N) 3

theorem left_energy (c : Dev nD) :
    Pipeline.withArrays spec0 c (V0 m c) (fun w => (dats m 0 c).arrAt w cfg0.N) (Proc.devRef .tc (Pipeline.arrRef spec0 3))
      = energyArr m c :=
  (left_arr m c).trans (final m c)

theorem left_out (c : Dev nD) :
    Pipeline.withArrays (cfgs 0).spec c (V0 m c) (fun w => (dats m 0 c).arrAt w (cfgs 0).N) (Proc.devRef .tc main_v79)
      = energyArr m c :=
  left_energy m c

/-- The receivers' indices are no array of the pipeline: the lines after the region find them as the region did. -/
theorem left_v3 (c : Dev nD) :
    Pipeline.withArrays (cfgs 0).spec c (V0 m c) (fun w => (dats m 0 c).arrAt w (cfgs 0).N) (Proc.devRef .tc main_v3)
      = Gen.V m c main_v3 :=
  Pipeline.withArrays_of_ne _ c (V0 m c) _ main_v3 (by exact (by decide : ∀ w, Pipeline.arrRef spec0 w ≠ main_v3))

theorem tail_eq (c : Dev nD) :
    Pipeline.afterTail₀ cfgs (dats m) 0 (V0 m) [hostOps1] c main_v88
      = tail (Gen.V m c main_v3) (edgeEnergy m c) := by
  unfold Pipeline.afterTail₀
  show StableHlo.after hostOps1 _ (Proc.devRef .tc main_v88) = _
  after_results
  rw [left_out m c, left_v3 m c, energyArr_eq]
  exact congrArg (tail (Gen.V m c main_v3))
    (shapeCast_shapeCast (edgeEnergy m c) shapeCasts_S6400000_S50000x128 shapeCasts_S50000x128_S6400000)

/-! ## The run -/

/-- Every weakly fair execution of the program terminates with the result at the tail of the receivers' indices and the
    flat per-edge energies, and the three arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v88)
        = tail (Gen.V m c main_v3) (fun e => Cert.Edge.kernelEnergy ((Gen.V m c main_v59 : S6400000.Idx → EReal) e)
            ((Gen.V m c main_v75 : S6400000.Idx → EReal) e) ((m ((c.tc : Thread nD τ).loc main_arg2) : S6400000.Idx → EReal) e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v88 (Pipeline.mem_restRefs_of main_v88 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.EdgeValue

end
-- ==== Proof.RefOps.lean ====
/- The reference program's @main as three consecutive lists of its host operations (the module-local functions'
   bodies written out at their calls): through the pair radius %75, through the halved edge energy %130, and the rest;
   and, per list, that each operation touches TensorCore references only. -/
import proofs.«401150_j84207128805710_3_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- 107 operations, in order. -/
abbrev opsA : List (HloOp τ sig (Elt F)) :=
  [ StableHlo.nullary main_cst (fun i => FloatOps.ofBits .f32 (lit0 (S87x4.rowMajor i))),
    StableHlo.nullary main_cst_0 (fun i => FloatOps.ofBits .f32 (lit1 (S4.rowMajor i))),
    StableHlo.nullary main_cst_1 (fun i => FloatOps.ofBits .f32 (lit2 (S4.rowMajor i))),
    StableHlo.nullary main_cst_2 (fun i => FloatOps.ofBits .f32 (lit3 (S4.rowMajor i))),
    StableHlo.nullary main_cst_3 (fun i => FloatOps.ofBits .f32 (lit4 (S4.rowMajor i))),
    StableHlo.unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v0 main_v1 rfl shapeCasts_S1x6400000_S6400000,
    StableHlo.unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v2 main_v3 rfl shapeCasts_S1x6400000_S6400000,
    StableHlo.nullary main_c (constantI S_ 32 0#32),
    StableHlo.unary main_c main_v4 (broadcastInDim S100000 ![] bcast_S_S100000 : (⟨S_, .i32⟩ : BufTy).Contents (Elt F) → (⟨S100000, .i32⟩ : BufTy).Contents (Elt F)),
    StableHlo.nullary main_c_4 (constantI S_ 32 0#32),
    StableHlo.unary main_c_4 main_v5 (broadcastInDim S6400000 ![] bcast_S_S6400000 : (⟨S_, .i32⟩ : BufTy).Contents (Elt F) → (⟨S6400000, .i32⟩ : BufTy).Contents (Elt F)),
    StableHlo.binary main_v3 main_v5 main_v6 (cmpi .slt : (⟨S6400000, .i32⟩ : BufTy).Contents (Elt F) → (⟨S6400000, .i32⟩ : BufTy).Contents (Elt F) → (⟨S6400000, .i1⟩ : BufTy).Contents (Elt F)),
    StableHlo.nullary main_c_5 (constantI S_ 32 100000#32),
    StableHlo.unary main_c_5 main_v7 (broadcastInDim S6400000 ![] bcast_S_S6400000 : (⟨S_, .i32⟩ : BufTy).Contents (Elt F) → (⟨S6400000, .i32⟩ : BufTy).Contents (Elt F)),
    StableHlo.binary main_v3 main_v7 main_v8 (addi : (⟨S6400000, .i32⟩ : BufTy).Contents (Elt F) → (⟨S6400000, .i32⟩ : BufTy).Contents (Elt F) → (⟨S6400000, .i32⟩ : BufTy).Contents (Elt F)),
    StableHlo.ternary main_v6 main_v8 main_v3 main_v9 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v9 main_v10 (broadcastInDim S6400000x1 ![0] bcast_S6400000_S6400000x1_0 : (⟨S6400000, .i32⟩ : BufTy).Contents (Elt F) → (⟨S6400000x1, .i32⟩ : BufTy).Contents (Elt F)),
    StableHlo.nullary main_c_6 (constantI S_ 32 1#32),
    StableHlo.unary main_c_6 main_v11 (broadcastInDim S6400000 ![] bcast_S_S6400000 : (⟨S_, .i32⟩ : BufTy).Contents (Elt F) → (⟨S6400000, .i32⟩ : BufTy).Contents (Elt F)),
    StableHlo.ternary main_v4 main_v10 main_v11 main_v12 ((fun x i u => Host.scatter scatter_S100000_S6400000x1_S6400000_n_0_0_1 IntOp.addi x i u) : (⟨S100000, .i32⟩ : BufTy).Contents (Elt F) → (⟨S6400000x1, .i32⟩ : BufTy).Contents (Elt F) → (⟨S6400000, .i32⟩ : BufTy).Contents (Elt F) → (⟨S100000, .i32⟩ : BufTy).Contents (Elt F)),
    StableHlo.nullary main_c_7 (constantI S_ 32 0#32),
    StableHlo.unary main_c_7 main_v13 (broadcastInDim S100000 ![] bcast_S_S100000 : (⟨S_, .i32⟩ : BufTy).Contents (Elt F) → (⟨S100000, .i32⟩ : BufTy).Contents (Elt F)),
    StableHlo.binary main_arg0 main_v13 main_v14 (cmpi .slt : (⟨S100000, .i32⟩ : BufTy).Contents (Elt F) → (⟨S100000, .i32⟩ : BufTy).Contents (Elt F) → (⟨S100000, .i1⟩ : BufTy).Contents (Elt F)),
    StableHlo.nullary main_c_8 (constantI S_ 32 87#32),
    StableHlo.unary main_c_8 main_v15 (broadcastInDim S100000 ![] bcast_S_S100000 : (⟨S_, .i32⟩ : BufTy).Contents (Elt F) → (⟨S100000, .i32⟩ : BufTy).Contents (Elt F)),
    StableHlo.binary main_arg0 main_v15 main_v16 (addi : (⟨S100000, .i32⟩ : BufTy).Contents (Elt F) → (⟨S100000, .i32⟩ : BufTy).Contents (Elt F) → (⟨S100000, .i32⟩ : BufTy).Contents (Elt F)),
    StableHlo.ternary main_v14 main_v16 main_arg0 main_v17 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v17 main_v18 (broadcastInDim S100000x1 ![0] bcast_S100000_S100000x1_0 : (⟨S100000, .i32⟩ : BufTy).Contents (Elt F) → (⟨S100000x1, .i32⟩ : BufTy).Contents (Elt F)),
    StableHlo.binary main_cst main_v18 main_v19 ((fun x i => Host.gather gather_S87x4_S100000x1_S100000x4_1_0_n_n_0_1_14 x i) : (⟨S87x4, .f32⟩ : BufTy).Contents (Elt F) → (⟨S100000x1, .i32⟩ : BufTy).Contents (Elt F) → (⟨S100000x4, .f32⟩ : BufTy).Contents (Elt F)),
    StableHlo.nullary main_c_9 (constantI S_ 32 3#32),
    StableHlo.unary main_c_9 main_v20 (broadcastInDim S100000 ![] bcast_S_S100000 : (⟨S_, .i32⟩ : BufTy).Contents (Elt F) → (⟨S100000, .i32⟩ : BufTy).Contents (Elt F)),
    StableHlo.binary main_v12 main_v20 main_v21 (cmpi .sle : (⟨S100000, .i32⟩ : BufTy).Contents (Elt F) → (⟨S100000, .i32⟩ : BufTy).Contents (Elt F) → (⟨S100000, .i1⟩ : BufTy).Contents (Elt F)),
    StableHlo.unary main_v21 main_v22 (broadcastInDim S100000x1 ![0] bcast_S100000_S100000x1_0 : (⟨S100000, .i1⟩ : BufTy).Contents (Elt F) → (⟨S100000x1, .i1⟩ : BufTy).Contents (Elt F)),
    StableHlo.unary main_cst_0 main_v23 (broadcastInDim S1x4 ![1] bcast_S4_S1x4_1 : (⟨S4, .f32⟩ : BufTy).Contents (Elt F) → (⟨S1x4, .f32⟩ : BufTy).Contents (Elt F)),
    StableHlo.unary main_cst_1 main_v24 (broadcastInDim S1x4 ![1] bcast_S4_S1x4_1 : (⟨S4, .f32⟩ : BufTy).Contents (Elt F) → (⟨S1x4, .f32⟩ : BufTy).Contents (Elt F)),
    StableHlo.TRef.unary (.of main_v22 : StableHlo.TRef sig ⟨S100000x1, .i1⟩) main_call0.v0 (broadcastInDim S100000x4 ![0, 1] bcast_S100000x1_S100000x4_0_1),
    StableHlo.TRef.unary (.of main_v23 : StableHlo.TRef sig ⟨S1x4, .f32⟩) main_call0.v1 (broadcastInDim S100000x4 ![0, 1] bcast_S1x4_S100000x4_0_1),
    StableHlo.TRef.unary (.of main_v24 : StableHlo.TRef sig ⟨S1x4, .f32⟩) main_call0.v2 (broadcastInDim S100000x4 ![0, 1] bcast_S1x4_S100000x4_0_1),
    StableHlo.TRef.ternary main_call0.v0 main_call0.v1 main_call0.v2 main_call0.v3 select,
    StableHlo.nullary main_c_10 (constantI S_ 32 2#32),
    StableHlo.unary main_c_10 main_v26 (broadcastInDim S100000 ![] bcast_S_S100000 : (⟨S_, .i32⟩ : BufTy).Contents (Elt F) → (⟨S100000, .i32⟩ : BufTy).Contents (Elt F)),
    StableHlo.binary main_v12 main_v26 main_v27 (cmpi .sle : (⟨S100000, .i32⟩ : BufTy).Contents (Elt F) → (⟨S100000, .i32⟩ : BufTy).Contents (Elt F) → (⟨S100000, .i1⟩ : BufTy).Contents (Elt F)),
    StableHlo.unary main_v27 main_v28 (broadcastInDim S100000x1 ![0] bcast_S100000_S100000x1_0 : (⟨S100000, .i1⟩ : BufTy).Contents (Elt F) → (⟨S100000x1, .i1⟩ : BufTy).Contents (Elt F)),
    StableHlo.unary main_cst_2 main_v29 (broadcastInDim S1x4 ![1] bcast_S4_S1x4_1 : (⟨S4, .f32⟩ : BufTy).Contents (Elt F) → (⟨S1x4, .f32⟩ : BufTy).Contents (Elt F)),
    StableHlo.unary main_cst_3 main_v30 (broadcastInDim S1x4 ![1] bcast_S4_S1x4_1 : (⟨S4, .f32⟩ : BufTy).Contents (Elt F) → (⟨S1x4, .f32⟩ : BufTy).Contents (Elt F)),
    StableHlo.TRef.unary (.of main_v28 : StableHlo.TRef sig ⟨S100000x1, .i1⟩) main_call1.v0 (broadcastInDim S100000x4 ![0, 1] bcast_S100000x1_S100000x4_0_1),
    StableHlo.TRef.unary (.of main_v29 : StableHlo.TRef sig ⟨S1x4, .f32⟩) main_call1.v1 (broadcastInDim S100000x4 ![0, 1] bcast_S1x4_S100000x4_0_1),
    StableHlo.TRef.unary (.of main_v30 : StableHlo.TRef sig ⟨S1x4, .f32⟩) main_call1.v2 (broadcastInDim S100000x4 ![0, 1] bcast_S1x4_S100000x4_0_1),
    StableHlo.TRef.ternary main_call1.v0 main_call1.v1 main_call1.v2 main_call1.v3 select,
    StableHlo.nullary main_c_11 (constantI S_ 32 6#32),
    StableHlo.unary main_c_11 main_v32 (broadcastInDim S100000 ![] bcast_S_S100000 : (⟨S_, .i32⟩ : BufTy).Contents (Elt F) → (⟨S100000, .i32⟩ : BufTy).Contents (Elt F)),
    StableHlo.binary main_arg0 main_v32 main_v33 (cmpi .eq : (⟨S100000, .i32⟩ : BufTy).Contents (Elt F) → (⟨S100000, .i32⟩ : BufTy).Contents (Elt F) → (⟨S100000, .i1⟩ : BufTy).Contents (Elt F)),
    StableHlo.unary main_v33 main_v34 (broadcastInDim S100000x1 ![0] bcast_S100000_S100000x1_0 : (⟨S100000, .i1⟩ : BufTy).Contents (Elt F) → (⟨S100000x1, .i1⟩ : BufTy).Contents (Elt F)),
    StableHlo.TRef.unary (.of main_v34 : StableHlo.TRef sig ⟨S100000x1, .i1⟩) main_call2.v0 (broadcastInDim S100000x4 ![0, 1] bcast_S100000x1_S100000x4_0_1),
    StableHlo.TRef.ternary main_call2.v0 (.of main_v25 : StableHlo.TRef sig ⟨S100000x4, .f32⟩) (.of main_v19 : StableHlo.TRef sig ⟨S100000x4, .f32⟩) main_call2.v1 select,
    StableHlo.nullary main_c_12 (constantI S_ 32 7#32),
    StableHlo.unary main_c_12 main_v36 (broadcastInDim S100000 ![] bcast_S_S100000 : (⟨S_, .i32⟩ : BufTy).Contents (Elt F) → (⟨S100000, .i32⟩ : BufTy).Contents (Elt F)),
    StableHlo.binary main_arg0 main_v36 main_v37 (cmpi .eq : (⟨S100000, .i32⟩ : BufTy).Contents (Elt F) → (⟨S100000, .i32⟩ : BufTy).Contents (Elt F) → (⟨S100000, .i1⟩ : BufTy).Contents (Elt F)),
    StableHlo.unary main_v37 main_v38 (broadcastInDim S100000x1 ![0] bcast_S100000_S100000x1_0 : (⟨S100000, .i1⟩ : BufTy).Contents (Elt F) → (⟨S100000x1, .i1⟩ : BufTy).Contents (Elt F)),
    StableHlo.TRef.unary (.of main_v38 : StableHlo.TRef sig ⟨S100000x1, .i1⟩) main_call3.v0 (broadcastInDim S100000x4 ![0, 1] bcast_S100000x1_S100000x4_0_1),
    StableHlo.TRef.ternary main_call3.v0 (.of main_v31 : StableHlo.TRef sig ⟨S100000x4, .f32⟩) (.of main_v35 : StableHlo.TRef sig ⟨S100000x4, .f32⟩) main_call3.v1 select,
    StableHlo.unary main_v39 main_v40 ((extractStridedSlice S100000x1 ![0, 2] · slices_S100000x4_S100000x1_0_2) : (⟨S100000x4, .f32⟩ : BufTy).Contents (Elt F) → (⟨S100000x1, .f32⟩ : BufTy).Contents (Elt F)),
    StableHlo.reshape main_v40 main_v41 rfl shapeCasts_S100000x1_S100000,
    StableHlo.unary main_v39 main_v42 ((extractStridedSlice S100000x1 ![0, 3] · slices_S100000x4_S100000x1_0_3) : (⟨S100000x4, .f32⟩ : BufTy).Contents (Elt F) → (⟨S100000x1, .f32⟩ : BufTy).Contents (Elt F)),
    StableHlo.reshape main_v42 main_v43 rfl shapeCasts_S100000x1_S100000,
    StableHlo.nullary main_c_13 (constantI S_ 32 0#32),
    StableHlo.unary main_c_13 main_v44 (broadcastInDim S6400000 ![] bcast_S_S6400000 : (⟨S_, .i32⟩ : BufTy).Contents (Elt F) → (⟨S6400000, .i32⟩ : BufTy).Contents (Elt F)),
    StableHlo.binary main_v1 main_v44 main_v45 (cmpi .slt : (⟨S6400000, .i32⟩ : BufTy).Contents (Elt F) → (⟨S6400000, .i32⟩ : BufTy).Contents (Elt F) → (⟨S6400000, .i1⟩ : BufTy).Contents (Elt F)),
    StableHlo.nullary main_c_14 (constantI S_ 32 100000#32),
    StableHlo.unary main_c_14 main_v46 (broadcastInDim S6400000 ![] bcast_S_S6400000 : (⟨S_, .i32⟩ : BufTy).Contents (Elt F) → (⟨S6400000, .i32⟩ : BufTy).Contents (Elt F)),
    StableHlo.binary main_v1 main_v46 main_v47 (addi : (⟨S6400000, .i32⟩ : BufTy).Contents (Elt F) → (⟨S6400000, .i32⟩ : BufTy).Contents (Elt F) → (⟨S6400000, .i32⟩ : BufTy).Contents (Elt F)),
    StableHlo.ternary main_v45 main_v47 main_v1 main_v48 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v48 main_v49 (broadcastInDim S6400000x1 ![0] bcast_S6400000_S6400000x1_0 : (⟨S6400000, .i32⟩ : BufTy).Contents (Elt F) → (⟨S6400000x1, .i32⟩ : BufTy).Contents (Elt F)),
    StableHlo.binary main_v43 main_v49 main_v50 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.nullary main_c_15 (constantI S_ 32 0#32),
    StableHlo.unary main_c_15 main_v51 (broadcastInDim S6400000 ![] bcast_S_S6400000 : (⟨S_, .i32⟩ : BufTy).Contents (Elt F) → (⟨S6400000, .i32⟩ : BufTy).Contents (Elt F)),
    StableHlo.binary main_v3 main_v51 main_v52 (cmpi .slt : (⟨S6400000, .i32⟩ : BufTy).Contents (Elt F) → (⟨S6400000, .i32⟩ : BufTy).Contents (Elt F) → (⟨S6400000, .i1⟩ : BufTy).Contents (Elt F)),
    StableHlo.nullary main_c_16 (constantI S_ 32 100000#32),
    StableHlo.unary main_c_16 main_v53 (broadcastInDim S6400000 ![] bcast_S_S6400000 : (⟨S_, .i32⟩ : BufTy).Contents (Elt F) → (⟨S6400000, .i32⟩ : BufTy).Contents (Elt F)),
    StableHlo.binary main_v3 main_v53 main_v54 (addi : (⟨S6400000, .i32⟩ : BufTy).Contents (Elt F) → (⟨S6400000, .i32⟩ : BufTy).Contents (Elt F) → (⟨S6400000, .i32⟩ : BufTy).Contents (Elt F)),
    StableHlo.ternary main_v52 main_v54 main_v3 main_v55 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v55 main_v56 (broadcastInDim S6400000x1 ![0] bcast_S6400000_S6400000x1_0 : (⟨S6400000, .i32⟩ : BufTy).Contents (Elt F) → (⟨S6400000x1, .i32⟩ : BufTy).Contents (Elt F)),
    StableHlo.binary main_v43 main_v56 main_v57 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v50 main_v57 main_v58 (mulf : (⟨S6400000, .f32⟩ : BufTy).Contents (Elt F) → (⟨S6400000, .f32⟩ : BufTy).Contents (Elt F) → (⟨S6400000, .f32⟩ : BufTy).Contents (Elt F)),
    StableHlo.unary main_v58 main_v59 (Host.sqrt : (⟨S6400000, .f32⟩ : BufTy).Contents (Elt F) → (⟨S6400000, .f32⟩ : BufTy).Contents (Elt F)),
    StableHlo.nullary main_c_17 (constantI S_ 32 0#32),
    StableHlo.unary main_c_17 main_v60 (broadcastInDim S6400000 ![] bcast_S_S6400000 : (⟨S_, .i32⟩ : BufTy).Contents (Elt F) → (⟨S6400000, .i32⟩ : BufTy).Contents (Elt F)),
    StableHlo.binary main_v1 main_v60 main_v61 (cmpi .slt : (⟨S6400000, .i32⟩ : BufTy).Contents (Elt F) → (⟨S6400000, .i32⟩ : BufTy).Contents (Elt F) → (⟨S6400000, .i1⟩ : BufTy).Contents (Elt F)),
    StableHlo.nullary main_c_18 (constantI S_ 32 100000#32),
    StableHlo.unary main_c_18 main_v62 (broadcastInDim S6400000 ![] bcast_S_S6400000 : (⟨S_, .i32⟩ : BufTy).Contents (Elt F) → (⟨S6400000, .i32⟩ : BufTy).Contents (Elt F)),
    StableHlo.binary main_v1 main_v62 main_v63 (addi : (⟨S6400000, .i32⟩ : BufTy).Contents (Elt F) → (⟨S6400000, .i32⟩ : BufTy).Contents (Elt F) → (⟨S6400000, .i32⟩ : BufTy).Contents (Elt F)),
    StableHlo.ternary main_v61 main_v63 main_v1 main_v64 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v64 main_v65 (broadcastInDim S6400000x1 ![0] bcast_S6400000_S6400000x1_0 : (⟨S6400000, .i32⟩ : BufTy).Contents (Elt F) → (⟨S6400000x1, .i32⟩ : BufTy).Contents (Elt F)),
    StableHlo.binary main_v41 main_v65 main_v66 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.nullary main_c_19 (constantI S_ 32 0#32),
    StableHlo.unary main_c_19 main_v67 (broadcastInDim S6400000 ![] bcast_S_S6400000 : (⟨S_, .i32⟩ : BufTy).Contents (Elt F) → (⟨S6400000, .i32⟩ : BufTy).Contents (Elt F)),
    StableHlo.binary main_v3 main_v67 main_v68 (cmpi .slt : (⟨S6400000, .i32⟩ : BufTy).Contents (Elt F) → (⟨S6400000, .i32⟩ : BufTy).Contents (Elt F) → (⟨S6400000, .i1⟩ : BufTy).Contents (Elt F)),
    StableHlo.nullary main_c_20 (constantI S_ 32 100000#32),
    StableHlo.unary main_c_20 main_v69 (broadcastInDim S6400000 ![] bcast_S_S6400000 : (⟨S_, .i32⟩ : BufTy).Contents (Elt F) → (⟨S6400000, .i32⟩ : BufTy).Contents (Elt F)),
    StableHlo.binary main_v3 main_v69 main_v70 (addi : (⟨S6400000, .i32⟩ : BufTy).Contents (Elt F) → (⟨S6400000, .i32⟩ : BufTy).Contents (Elt F) → (⟨S6400000, .i32⟩ : BufTy).Contents (Elt F)),
    StableHlo.ternary main_v68 main_v70 main_v3 main_v71 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v71 main_v72 (broadcastInDim S6400000x1 ![0] bcast_S6400000_S6400000x1_0 : (⟨S6400000, .i32⟩ : BufTy).Contents (Elt F) → (⟨S6400000x1, .i32⟩ : BufTy).Contents (Elt F)),
    StableHlo.binary main_v41 main_v72 main_v73 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v66 main_v73 main_v74 (mulf : (⟨S6400000, .f32⟩ : BufTy).Contents (Elt F) → (⟨S6400000, .f32⟩ : BufTy).Contents (Elt F) → (⟨S6400000, .f32⟩ : BufTy).Contents (Elt F)),
    StableHlo.unary main_v74 main_v75 (Host.sqrt : (⟨S6400000, .f32⟩ : BufTy).Contents (Elt F) → (⟨S6400000, .f32⟩ : BufTy).Contents (Elt F)) ]

theorem opsA_sub : (opsA : List (HloOp τ sig (Elt F))).Forall fun op => op.bufs ⊆ tcRefs τ sig :=
  ⟨nullary_bufs_sub .., nullary_bufs_sub .., nullary_bufs_sub .., nullary_bufs_sub .., nullary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., ternary_bufs_sub .., nullary_bufs_sub .., unary_bufs_sub .., binary_bufs_sub .., unary_bufs_sub .., unary_bufs_sub .., unary_bufs_sub .., unary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

/-- 74 operations, in order. -/
abbrev opsB : List (HloOp τ sig (Elt F)) :=
  [ StableHlo.unary main_v75 main_v76 (Host.sqrt : (⟨S6400000, .f32⟩ : BufTy).Contents (Elt F) → (⟨S6400000, .f32⟩ : BufTy).Contents (Elt F)),
    StableHlo.nullary main_cst_21 (constant S_ .f32 0x3ECCCCCD#32),
    StableHlo.unary main_cst_21 main_v77 (broadcastInDim S6400000 ![] bcast_S_S6400000 : (⟨S_, .f32⟩ : BufTy).Contents (Elt F) → (⟨S6400000, .f32⟩ : BufTy).Contents (Elt F)),
    StableHlo.binary main_v77 main_v76 main_v78 (mulf : (⟨S6400000, .f32⟩ : BufTy).Contents (Elt F) → (⟨S6400000, .f32⟩ : BufTy).Contents (Elt F) → (⟨S6400000, .f32⟩ : BufTy).Contents (Elt F)),
    StableHlo.nullary main_cst_22 (constant S_ .f32 0x40800000#32),
    StableHlo.unary main_cst_22 main_v79 (broadcastInDim S6400000 ![] bcast_S_S6400000 : (⟨S_, .f32⟩ : BufTy).Contents (Elt F) → (⟨S6400000, .f32⟩ : BufTy).Contents (Elt F)),
    StableHlo.binary main_v78 main_v79 main_v80 (addf : (⟨S6400000, .f32⟩ : BufTy).Contents (Elt F) → (⟨S6400000, .f32⟩ : BufTy).Contents (Elt F) → (⟨S6400000, .f32⟩ : BufTy).Contents (Elt F)),
    StableHlo.binary main_v80 main_arg2 main_v81 (Host.divf : (⟨S6400000, .f32⟩ : BufTy).Contents (Elt F) → (⟨S6400000, .f32⟩ : BufTy).Contents (Elt F) → (⟨S6400000, .f32⟩ : BufTy).Contents (Elt F)),
    StableHlo.nullary main_cst_23 (constant S_ .f32 0x41600000#32),
    StableHlo.unary main_cst_23 main_v82 (broadcastInDim S6400000 ![] bcast_S_S6400000 : (⟨S_, .f32⟩ : BufTy).Contents (Elt F) → (⟨S6400000, .f32⟩ : BufTy).Contents (Elt F)),
    StableHlo.binary main_v81 main_v82 main_v83 (Host.powf : (⟨S6400000, .f32⟩ : BufTy).Contents (Elt F) → (⟨S6400000, .f32⟩ : BufTy).Contents (Elt F) → (⟨S6400000, .f32⟩ : BufTy).Contents (Elt F)),
    StableHlo.nullary main_cst_24 (constant S_ .f32 0x40C00000#32),
    StableHlo.unary main_cst_24 main_v84 (broadcastInDim S6400000 ![] bcast_S_S6400000 : (⟨S_, .f32⟩ : BufTy).Contents (Elt F) → (⟨S6400000, .f32⟩ : BufTy).Contents (Elt F)),
    StableHlo.binary main_v84 main_v83 main_v85 (mulf : (⟨S6400000, .f32⟩ : BufTy).Contents (Elt F) → (⟨S6400000, .f32⟩ : BufTy).Contents (Elt F) → (⟨S6400000, .f32⟩ : BufTy).Contents (Elt F)),
    StableHlo.nullary main_cst_25 (constant S_ .f32 0x3F800000#32),
    StableHlo.unary main_cst_25 main_v86 (broadcastInDim S6400000 ![] bcast_S_S6400000 : (⟨S_, .f32⟩ : BufTy).Contents (Elt F) → (⟨S6400000, .f32⟩ : BufTy).Contents (Elt F)),
    StableHlo.binary main_v86 main_v85 main_v87 (addf : (⟨S6400000, .f32⟩ : BufTy).Contents (Elt F) → (⟨S6400000, .f32⟩ : BufTy).Contents (Elt F) → (⟨S6400000, .f32⟩ : BufTy).Contents (Elt F)),
    StableHlo.nullary main_cst_26 (constant S_ .f32 0x3F800000#32),
    StableHlo.unary main_cst_26 main_v88 (broadcastInDim S6400000 ![] bcast_S_S6400000 : (⟨S_, .f32⟩ : BufTy).Contents (Elt F) → (⟨S6400000, .f32⟩ : BufTy).Contents (Elt F)),
    StableHlo.binary main_v88 main_v87 main_v89 (Host.divf : (⟨S6400000, .f32⟩ : BufTy).Contents (Elt F) → (⟨S6400000, .f32⟩ : BufTy).Contents (Elt F) → (⟨S6400000, .f32⟩ : BufTy).Contents (Elt F)),
    StableHlo.unary main_v59 main_v90 (Host.negf : (⟨S6400000, .f32⟩ : BufTy).Contents (Elt F) → (⟨S6400000, .f32⟩ : BufTy).Contents (Elt F)),
    StableHlo.binary main_v75 main_v75 main_v91 (mulf : (⟨S6400000, .f32⟩ : BufTy).Contents (Elt F) → (⟨S6400000, .f32⟩ : BufTy).Contents (Elt F) → (⟨S6400000, .f32⟩ : BufTy).Contents (Elt F)),
    StableHlo.binary main_v91 main_v91 main_v92 (mulf : (⟨S6400000, .f32⟩ : BufTy).Contents (Elt F) → (⟨S6400000, .f32⟩ : BufTy).Contents (Elt F) → (⟨S6400000, .f32⟩ : BufTy).Contents (Elt F)),
    StableHlo.binary main_v91 main_v92 main_v93 (mulf : (⟨S6400000, .f32⟩ : BufTy).Contents (Elt F) → (⟨S6400000, .f32⟩ : BufTy).Contents (Elt F) → (⟨S6400000, .f32⟩ : BufTy).Contents (Elt F)),
    StableHlo.binary main_arg2 main_arg2 main_v94 (mulf : (⟨S6400000, .f32⟩ : BufTy).Contents (Elt F) → (⟨S6400000, .f32⟩ : BufTy).Contents (Elt F) → (⟨S6400000, .f32⟩ : BufTy).Contents (Elt F)),
    StableHlo.binary main_v94 main_v94 main_v95 (mulf : (⟨S6400000, .f32⟩ : BufTy).Contents (Elt F) → (⟨S6400000, .f32⟩ : BufTy).Contents (Elt F) → (⟨S6400000, .f32⟩ : BufTy).Contents (Elt F)),
    StableHlo.binary main_v94 main_v95 main_v96 (mulf : (⟨S6400000, .f32⟩ : BufTy).Contents (Elt F) → (⟨S6400000, .f32⟩ : BufTy).Contents (Elt F) → (⟨S6400000, .f32⟩ : BufTy).Contents (Elt F)),
    StableHlo.binary main_v93 main_v96 main_v97 (addf : (⟨S6400000, .f32⟩ : BufTy).Contents (Elt F) → (⟨S6400000, .f32⟩ : BufTy).Contents (Elt F) → (⟨S6400000, .f32⟩ : BufTy).Contents (Elt F)),
    StableHlo.binary main_v90 main_v97 main_v98 (Host.divf : (⟨S6400000, .f32⟩ : BufTy).Contents (Elt F) → (⟨S6400000, .f32⟩ : BufTy).Contents (Elt F) → (⟨S6400000, .f32⟩ : BufTy).Contents (Elt F)),
    StableHlo.binary main_v98 main_v89 main_v99 (mulf : (⟨S6400000, .f32⟩ : BufTy).Contents (Elt F) → (⟨S6400000, .f32⟩ : BufTy).Contents (Elt F) → (⟨S6400000, .f32⟩ : BufTy).Contents (Elt F)),
    StableHlo.nullary main_cst_27 (constant S_ .f32 0x41000000#32),
    StableHlo.unary main_cst_27 main_v100 (broadcastInDim S6400000 ![] bcast_S_S6400000 : (⟨S_, .f32⟩ : BufTy).Contents (Elt F) → (⟨S6400000, .f32⟩ : BufTy).Contents (Elt F)),
    StableHlo.binary main_arg2 main_v100 main_v101 (subf : (⟨S6400000, .f32⟩ : BufTy).Contents (Elt F) → (⟨S6400000, .f32⟩ : BufTy).Contents (Elt F) → (⟨S6400000, .f32⟩ : BufTy).Contents (Elt F)),
    StableHlo.nullary main_cst_28 (constant S_ .f32 0x40000000#32),
    StableHlo.unary main_cst_28 main_v102 (broadcastInDim S6400000 ![] bcast_S_S6400000 : (⟨S_, .f32⟩ : BufTy).Contents (Elt F) → (⟨S6400000, .f32⟩ : BufTy).Contents (Elt F)),
    StableHlo.binary main_v101 main_v102 main_v103 (Host.divf : (⟨S6400000, .f32⟩ : BufTy).Contents (Elt F) → (⟨S6400000, .f32⟩ : BufTy).Contents (Elt F) → (⟨S6400000, .f32⟩ : BufTy).Contents (Elt F)),
    StableHlo.nullary main_cst_29 (constant S_ .f32 0x41000000#32),
    StableHlo.unary main_cst_29 main_v104 (broadcastInDim S6400000 ![] bcast_S_S6400000 : (⟨S_, .f32⟩ : BufTy).Contents (Elt F) → (⟨S6400000, .f32⟩ : BufTy).Contents (Elt F)),
    StableHlo.binary main_arg2 main_v104 main_v105 (cmpf .olt : (⟨S6400000, .f32⟩ : BufTy).Contents (Elt F) → (⟨S6400000, .f32⟩ : BufTy).Contents (Elt F) → (⟨S6400000, .i1⟩ : BufTy).Contents (Elt F)),
    StableHlo.binary main_v103 main_v103 main_v106 (mulf : (⟨S6400000, .f32⟩ : BufTy).Contents (Elt F) → (⟨S6400000, .f32⟩ : BufTy).Contents (Elt F) → (⟨S6400000, .f32⟩ : BufTy).Contents (Elt F)),
    StableHlo.binary main_v106 main_v106 main_v107 (mulf : (⟨S6400000, .f32⟩ : BufTy).Contents (Elt F) → (⟨S6400000, .f32⟩ : BufTy).Contents (Elt F) → (⟨S6400000, .f32⟩ : BufTy).Contents (Elt F)),
    StableHlo.binary main_v106 main_v107 main_v108 (mulf : (⟨S6400000, .f32⟩ : BufTy).Contents (Elt F) → (⟨S6400000, .f32⟩ : BufTy).Contents (Elt F) → (⟨S6400000, .f32⟩ : BufTy).Contents (Elt F)),
    StableHlo.nullary main_cst_30 (constant S_ .f32 0x41E00000#32),
    StableHlo.unary main_cst_30 main_v109 (broadcastInDim S6400000 ![] bcast_S_S6400000 : (⟨S_, .f32⟩ : BufTy).Contents (Elt F) → (⟨S6400000, .f32⟩ : BufTy).Contents (Elt F)),
    StableHlo.binary main_v109 main_v108 main_v110 (mulf : (⟨S6400000, .f32⟩ : BufTy).Contents (Elt F) → (⟨S6400000, .f32⟩ : BufTy).Contents (Elt F) → (⟨S6400000, .f32⟩ : BufTy).Contents (Elt F)),
    StableHlo.nullary main_cst_31 (constant S_ .f32 0x3F800000#32),
    StableHlo.unary main_cst_31 main_v111 (broadcastInDim S6400000 ![] bcast_S_S6400000 : (⟨S_, .f32⟩ : BufTy).Contents (Elt F) → (⟨S6400000, .f32⟩ : BufTy).Contents (Elt F)),
    StableHlo.binary main_v111 main_v110 main_v112 (subf : (⟨S6400000, .f32⟩ : BufTy).Contents (Elt F) → (⟨S6400000, .f32⟩ : BufTy).Contents (Elt F) → (⟨S6400000, .f32⟩ : BufTy).Contents (Elt F)),
    StableHlo.nullary main_cst_32 (constant S_ .f32 0x42400000#32),
    StableHlo.unary main_cst_32 main_v113 (broadcastInDim S6400000 ![] bcast_S_S6400000 : (⟨S_, .f32⟩ : BufTy).Contents (Elt F) → (⟨S6400000, .f32⟩ : BufTy).Contents (Elt F)),
    StableHlo.binary main_v113 main_v108 main_v114 (mulf : (⟨S6400000, .f32⟩ : BufTy).Contents (Elt F) → (⟨S6400000, .f32⟩ : BufTy).Contents (Elt F) → (⟨S6400000, .f32⟩ : BufTy).Contents (Elt F)),
    StableHlo.binary main_v114 main_v103 main_v115 (mulf : (⟨S6400000, .f32⟩ : BufTy).Contents (Elt F) → (⟨S6400000, .f32⟩ : BufTy).Contents (Elt F) → (⟨S6400000, .f32⟩ : BufTy).Contents (Elt F)),
    StableHlo.binary main_v112 main_v115 main_v116 (addf : (⟨S6400000, .f32⟩ : BufTy).Contents (Elt F) → (⟨S6400000, .f32⟩ : BufTy).Contents (Elt F) → (⟨S6400000, .f32⟩ : BufTy).Contents (Elt F)),
    StableHlo.nullary main_cst_33 (constant S_ .f32 0x41A80000#32),
    StableHlo.unary main_cst_33 main_v117 (broadcastInDim S6400000 ![] bcast_S_S6400000 : (⟨S_, .f32⟩ : BufTy).Contents (Elt F) → (⟨S6400000, .f32⟩ : BufTy).Contents (Elt F)),
    StableHlo.binary main_v117 main_v108 main_v118 (mulf : (⟨S6400000, .f32⟩ : BufTy).Contents (Elt F) → (⟨S6400000, .f32⟩ : BufTy).Contents (Elt F) → (⟨S6400000, .f32⟩ : BufTy).Contents (Elt F)),
    StableHlo.binary main_v118 main_v103 main_v119 (mulf : (⟨S6400000, .f32⟩ : BufTy).Contents (Elt F) → (⟨S6400000, .f32⟩ : BufTy).Contents (Elt F) → (⟨S6400000, .f32⟩ : BufTy).Contents (Elt F)),
    StableHlo.binary main_v119 main_v103 main_v120 (mulf : (⟨S6400000, .f32⟩ : BufTy).Contents (Elt F) → (⟨S6400000, .f32⟩ : BufTy).Contents (Elt F) → (⟨S6400000, .f32⟩ : BufTy).Contents (Elt F)),
    StableHlo.binary main_v116 main_v120 main_v121 (subf : (⟨S6400000, .f32⟩ : BufTy).Contents (Elt F) → (⟨S6400000, .f32⟩ : BufTy).Contents (Elt F) → (⟨S6400000, .f32⟩ : BufTy).Contents (Elt F)),
    StableHlo.nullary main_cst_34 (constant S_ .f32 0x3F800000#32),
    StableHlo.unary main_cst_34 main_v122 (broadcastInDim S6400000 ![] bcast_S_S6400000 : (⟨S_, .f32⟩ : BufTy).Contents (Elt F) → (⟨S6400000, .f32⟩ : BufTy).Contents (Elt F)),
    StableHlo.binary main_v103 main_v122 main_v123 (cmpf .olt : (⟨S6400000, .f32⟩ : BufTy).Contents (Elt F) → (⟨S6400000, .f32⟩ : BufTy).Contents (Elt F) → (⟨S6400000, .i1⟩ : BufTy).Contents (Elt F)),
    StableHlo.unary main_v123 main_v124 (uitofp .f32 : (⟨S6400000, .i1⟩ : BufTy).Contents (Elt F) → (⟨S6400000, .f32⟩ : BufTy).Contents (Elt F)),
    StableHlo.binary main_v121 main_v124 main_v125 (mulf : (⟨S6400000, .f32⟩ : BufTy).Contents (Elt F) → (⟨S6400000, .f32⟩ : BufTy).Contents (Elt F) → (⟨S6400000, .f32⟩ : BufTy).Contents (Elt F)),
    StableHlo.nullary main_cst_35 (constant S_ .f32 0x3F800000#32),
    StableHlo.TRef.unary (.of main_cst_35 : StableHlo.TRef sig ⟨S_, .f32⟩) main_call4.v0 id,
    StableHlo.TRef.unary main_call4.v0 main_call4.v1 (broadcastInDim S6400000 ![] bcast_S_S6400000),
    StableHlo.TRef.ternary (.of main_v105 : StableHlo.TRef sig ⟨S6400000, .i1⟩) main_call4.v1 (.of main_v125 : StableHlo.TRef sig ⟨S6400000, .f32⟩) main_call4.v2 select,
    StableHlo.binary main_v99 main_v126 main_v127 (mulf : (⟨S6400000, .f32⟩ : BufTy).Contents (Elt F) → (⟨S6400000, .f32⟩ : BufTy).Contents (Elt F) → (⟨S6400000, .f32⟩ : BufTy).Contents (Elt F)),
    StableHlo.nullary main_cst_36 (constant S_ .f32 0x00000000#32),
    StableHlo.unary main_cst_36 main_v128 (broadcastInDim S100000 ![] bcast_S_S100000 : (⟨S_, .f32⟩ : BufTy).Contents (Elt F) → (⟨S100000, .f32⟩ : BufTy).Contents (Elt F)),
    StableHlo.nullary main_cst_37 (constant S_ .f32 0x3F000000#32),
    StableHlo.unary main_cst_37 main_v129 (broadcastInDim S6400000 ![] bcast_S_S6400000 : (⟨S_, .f32⟩ : BufTy).Contents (Elt F) → (⟨S6400000, .f32⟩ : BufTy).Contents (Elt F)),
    StableHlo.binary main_v129 main_v127 main_v130 (mulf : (⟨S6400000, .f32⟩ : BufTy).Contents (Elt F) → (⟨S6400000, .f32⟩ : BufTy).Contents (Elt F) → (⟨S6400000, .f32⟩ : BufTy).Contents (Elt F)) ]

theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., nullary_bufs_sub .., unary_bufs_sub .., binary_bufs_sub ..⟩

/-- 9 operations, in order. -/
abbrev opsC : List (HloOp τ sig (Elt F)) :=
  [ StableHlo.nullary main_c_38 (constantI S_ 32 0#32),
    StableHlo.unary main_c_38 main_v131 (broadcastInDim S6400000 ![] bcast_S_S6400000 : (⟨S_, .i32⟩ : BufTy).Contents (Elt F) → (⟨S6400000, .i32⟩ : BufTy).Contents (Elt F)),
    StableHlo.binary main_v3 main_v131 main_v132 (cmpi .slt : (⟨S6400000, .i32⟩ : BufTy).Contents (Elt F) → (⟨S6400000, .i32⟩ : BufTy).Contents (Elt F) → (⟨S6400000, .i1⟩ : BufTy).Contents (Elt F)),
    StableHlo.nullary main_c_39 (constantI S_ 32 100000#32),
    StableHlo.unary main_c_39 main_v133 (broadcastInDim S6400000 ![] bcast_S_S6400000 : (⟨S_, .i32⟩ : BufTy).Contents (Elt F) → (⟨S6400000, .i32⟩ : BufTy).Contents (Elt F)),
    StableHlo.binary main_v3 main_v133 main_v134 (addi : (⟨S6400000, .i32⟩ : BufTy).Contents (Elt F) → (⟨S6400000, .i32⟩ : BufTy).Contents (Elt F) → (⟨S6400000, .i32⟩ : BufTy).Contents (Elt F)),
    StableHlo.ternary main_v132 main_v134 main_v3 main_v135 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v135 main_v136 (broadcastInDim S6400000x1 ![0] bcast_S6400000_S6400000x1_0 : (⟨S6400000, .i32⟩ : BufTy).Contents (Elt F) → (⟨S6400000x1, .i32⟩ : BufTy).Contents (Elt F)),
    StableHlo.ternary main_v128 main_v136 main_v130 main_v137 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)) ]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub ..⟩

end Cert.ReferenceIdeal.HostRun

end
-- ==== Proof.RefRun.lean ====
/-
  The reference program's run.  Its @main is a straight line of 190 host operations (the three outlined `where` functions written
  out at their five calls); every weakly fair execution ends with each buffer at the fold of those operations over
  the launch contents.  The line is cut in three: the index and parameter-table preparation up to the pair radius
  (`opsA`), the per-edge arithmetic (`opsB`) and the scatter onto the receivers (`opsC`); the fold over the whole
  line is the fold over the third part of the fold over the second of the fold over the first.
-/
import proofs.«401150_j84207128805710_3_alg».proof.Proof.RefOps
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The whole line. -/
abbrev ops : List (HloOp τ sig (Elt F)) := opsA ++ (opsB ++ opsC)

set_option maxRecDepth 16384 in
set_option maxHeartbeats 4000000 in
/-- @main is that line: the outlined functions' bodies unfolded at their calls, sequencing reassociated. -/
theorem main_eq (c : Dev nD) : main (F := F) c = seq ops := by
  simp only [main, main_part0, main_part1, main_part2, main_part3, fn_where.body, fn_where_0.body, fn_where_1.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op hop
  rcases List.mem_append.mp hop with h | hop
  · exact (List.forall_iff_forall_mem.mp opsA_sub) op h
  rcases List.mem_append.mp hop with h | h
  · exact (List.forall_iff_forall_mem.mp opsB_sub) op h
  · exact (List.forall_iff_forall_mem.mp opsC_sub) op h

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor

theorem ops_fresh : ∀ op ∈ (ops : List (HloOp τ sig (Elt F))), op.fresh = ∅ := by
  intro op hop
  rcases List.mem_append.mp hop with h | hop
  · exact (List.forall_iff_forall_mem.mp opsA_fresh) op h
  rcases List.mem_append.mp hop with h | h
  · exact (List.forall_iff_forall_mem.mp opsB_fresh) op h
  · exact (List.forall_iff_forall_mem.mp opsC_fresh) op h

/-- Every weakly fair execution of the reference terminates, every buffer at the three folds composed. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsC (after opsB (after opsA (launchContents m d))) (Proc.devRef .tc b) := by
  have h := run_seq scopedRefs_eq scopedSems_eq defs main (fun _ => ops) main_eq (fun _ => ops_sub) m ρ (fun _ => ops_fresh)
  refine (θ_run defs _ _).mono (fun r hr d b => ?_) h
  rw [hr d b, StableHlo.after_append, StableHlo.after_append]

end Cert.ReferenceIdeal.HostRun

end
-- ==== Proof.RefValue.lean ====
/-
  What the reference's three folds leave, read at the buffers that matter.
  The third part scatters the per-edge energies onto the receivers: node `i` ends at the sum of the energies of
  the edges whose (normalised) receiver index is `i`.  The second part is arithmetic edge by edge: its last value,
  the halved edge energy, is at edge `e` the function `Cert.Edge.referenceEnergy` of the pair coefficient, the pair
  radius and the length at `e`.  The first part writes none of the three arguments, nor does any later part.
-/
import proofs.«401150_j84207128805710_3_alg».proof.Proof.RefOps
import proofs.«401150_j84207128805710_3_alg».proof.Proof.EdgeEnergy

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The scatter of per-edge values `upd` onto the nodes: receiver indices below zero are first moved up by the
    node count (the negative-index convention), then each value is added at its receiver, starting from `zeros`. -/
def scatterEdges (zeros : FVec F S100000 .f32) (recv : IVec S6400000 32) (upd : FVec F S6400000 .f32) : FVec F S100000 .f32 :=
  Host.scatterAdd scatter_S100000_S6400000x1_S6400000_n_0_0_1 zeros
    (broadcastInDim S6400000x1 ![0] bcast_S6400000_S6400000x1_0
      (select (cmpi CmpIPredicate.slt recv (broadcastInDim S6400000 ![] bcast_S_S6400000 (constantI S_ 32 0#32)))
        (addi recv (broadcastInDim S6400000 ![] bcast_S_S6400000 (constantI S_ 32 100000#32)))
        recv))
    upd

/-- The third part's result. -/
theorem opsC_result (W : Valuation τ sig (Elt F)) :
    after opsC W (Proc.devRef .tc main_v137)
      = scatterEdges (W (Proc.devRef .tc main_v128)) (W (Proc.devRef .tc main_v3)) (W (Proc.devRef .tc main_v130)) := by
  after_results
  rfl

/-- The third part writes no argument. -/
theorem opsC_arg0 (W : Valuation τ sig (Elt F)) : after opsC W (Proc.devRef .tc main_arg0) = W (Proc.devRef .tc main_arg0) := by
  after_results
theorem opsC_arg1 (W : Valuation τ sig (Elt F)) : after opsC W (Proc.devRef .tc main_arg1) = W (Proc.devRef .tc main_arg1) := by
  after_results
theorem opsC_arg2 (W : Valuation τ sig (Elt F)) : after opsC W (Proc.devRef .tc main_arg2) = W (Proc.devRef .tc main_arg2) := by
  after_results

set_option maxRecDepth 16384 in
/-- The second part's last value, edge by edge. -/
theorem opsB_energy (W : Valuation τ sig (Elt Ideal)) :
    (after opsB W (Proc.devRef .tc main_v130) : FVec Ideal S6400000 .f32)
      = fun e => Cert.Edge.referenceEnergy ((W (Proc.devRef .tc main_v59) : FVec Ideal S6400000 .f32) e)
          ((W (Proc.devRef .tc main_v75) : FVec Ideal S6400000 .f32) e) ((W (Proc.devRef .tc main_arg2) : FVec Ideal S6400000 .f32) e) := by
  after_results_simp
  funext e
  rfl

set_option maxRecDepth 16384 in
/-- The zero vector the scatter starts from. -/
theorem opsB_zeros (W : Valuation τ sig (Elt F)) :
    after opsB W (Proc.devRef .tc main_v128) = broadcastInDim S100000 ![] bcast_S_S100000 (constant S_ .f32 0x00000000#32) := by
  after_results_simp

set_option maxRecDepth 16384 in
/-- The second part writes neither the receiver indices nor an argument. -/
theorem opsB_v3 (W : Valuation τ sig (Elt F)) : after opsB W (Proc.devRef .tc main_v3) = W (Proc.devRef .tc main_v3) := by
  after_results_simp
set_option maxRecDepth 16384 in
theorem opsB_arg0 (W : Valuation τ sig (Elt F)) : after opsB W (Proc.devRef .tc main_arg0) = W (Proc.devRef .tc main_arg0) := by
  after_results_simp
set_option maxRecDepth 16384 in
theorem opsB_arg1 (W : Valuation τ sig (Elt F)) : after opsB W (Proc.devRef .tc main_arg1) = W (Proc.devRef .tc main_arg1) := by
  after_results_simp
set_option maxRecDepth 16384 in
theorem opsB_arg2 (W : Valuation τ sig (Elt F)) : after opsB W (Proc.devRef .tc main_arg2) = W (Proc.devRef .tc main_arg2) := by
  after_results_simp

set_option maxRecDepth 16384 in
/-- The first part writes no argument. -/
theorem opsA_arg0 (W : Valuation τ sig (Elt F)) : after opsA W (Proc.devRef .tc main_arg0) = W (Proc.devRef .tc main_arg0) := by
  after_results_simp
set_option maxRecDepth 16384 in
theorem opsA_arg1 (W : Valuation τ sig (Elt F)) : after opsA W (Proc.devRef .tc main_arg1) = W (Proc.devRef .tc main_arg1) := by
  after_results_simp
set_option maxRecDepth 16384 in
theorem opsA_arg2 (W : Valuation τ sig (Elt F)) : after opsA W (Proc.devRef .tc main_arg2) = W (Proc.devRef .tc main_arg2) := by
  after_results_simp

end Cert.ReferenceIdeal.HostRun

end
-- ==== Proof.RefResult.lean ====
/-
  The reference's result as one expression: every weakly fair execution ends with the node energies at the scatter,
  onto the receivers, of the per-edge function `Cert.Edge.referenceEnergy` of the pair coefficient, the pair radius
  (both as the first stretch of host operations leaves them) and the edge length (an argument), and with the three
  arguments as launched.
-/
import proofs.«401150_j84207128805710_3_alg».proof.Proof.RefRun
import proofs.«401150_j84207128805710_3_alg».proof.Proof.RefValue

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The contents after the first stretch (indices, parameter table, pair coefficient and radius). -/
abbrev prepared (m : (ℓ : Loc nD τ sig) → Buf (Elt Ideal) ℓ) (d : Dev nD) : Valuation τ sig (Elt Ideal) :=
  after (opsA (F := Ideal)) (launchContents m d)

theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v137)
        = scatterEdges (F := Ideal) (broadcastInDim S100000 ![] bcast_S_S100000 (constant S_ .f32 0x00000000#32))
            (prepared m c (Proc.devRef .tc main_v3))
            (fun e => Cert.Edge.referenceEnergy ((prepared m c (Proc.devRef .tc main_v59) : FVec Ideal S6400000 .f32) e)
              ((prepared m c (Proc.devRef .tc main_v75) : FVec Ideal S6400000 .f32) e)
              ((m ((c.tc : Thread nD τ).loc main_arg2) : FVec Ideal S6400000 .f32) e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run (F := Ideal) m ρ)
  · rw [h c main_v137, opsC_result, opsB_zeros, opsB_v3, opsB_energy, opsA_arg2]
    rfl
  · rw [h c main_arg0, opsC_arg0, opsB_arg0, opsA_arg0]
  · rw [h c main_arg1, opsC_arg1, opsB_arg1, opsA_arg1]
  · rw [h c main_arg2, opsC_arg2, opsB_arg2, opsA_arg2]

end Cert.ReferenceIdeal.HostRun

end
-- ==== Proof.SharedInputs.lean ====
/-
  The two programs prepare the same per-edge inputs.  Before anything differs, both apply the same host
  operations to the same arguments: the receiver indices (row 1 of the edge list), the per-node parameter table
  (gathered by atomic number, with the coordination-dependent rows for carbon and nitrogen selected in), and from
  it the pair coefficient and the pair radius of every edge (geometric means over sender and receiver).  So the
  kernel program's buffers for these three values, as its one region finds them, hold what the reference's first
  stretch of operations leaves in its own.
-/
import proofs.«401150_j84207128805710_3_alg».proof.Proof.Gen.KernelIdeal.Frame
import proofs.«401150_j84207128805710_3_alg».proof.Proof.RefOps
import Idealize.ShloMosaic.PureOps.Ideal

set_option maxRecDepth 16384

noncomputable section

namespace Cert.SharedInputs

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Unfold the kernel program's region-entry contents to the fold of its host operations, and read both folds. -/
local macro "read_both_folds" : tactic =>
  `(tactic| (dsimp only [Cert.KernelIdeal.Gen.V, Cert.KernelIdeal.Gen.V0]
             simp only [Cert.KernelIdeal.Gen.hostOps0, Cert.KernelIdeal.Gen.hostOps0_1, Cert.KernelIdeal.Gen.hostOps0_2, Cert.KernelIdeal.Gen.hostOps0_3,
               Cert.KernelIdeal.Gen.hostOps0_4, Cert.KernelIdeal.Gen.hostOps0_5, Cert.KernelIdeal.Gen.hostOps0_6, Cert.KernelIdeal.Gen.hostOps0_7,
               Cert.KernelIdeal.Gen.hostOps0_8, List.flatten_cons, List.flatten_nil, List.append_nil, List.cons_append, List.nil_append]
             after_results_simp))

attribute [local irreducible] Host.gather Host.scatter in
set_option maxHeartbeats 4000000 in
/-- The receiver indices. -/
theorem receivers
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v3 : IVec Cert.KernelIdeal.S6400000 32)
      = after (Cert.ReferenceIdeal.HostRun.opsA (F := Ideal)) (launchContents m' c) (Proc.devRef .tc Cert.ReferenceIdeal.main_v3) := by
  read_both_folds
  rw [show launchContents m' c (Proc.devRef .tc Cert.ReferenceIdeal.main_arg1) = m (c, Proc.devRef .tc Cert.KernelIdeal.main_arg1) from h1]
  rfl

attribute [local irreducible] Host.gather Host.scatter in
set_option maxHeartbeats 4000000 in
/-- The pair coefficient of every edge. -/
theorem pairCoefficient
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v59 : FVec Ideal Cert.KernelIdeal.S6400000 .f32)
      = after (Cert.ReferenceIdeal.HostRun.opsA (F := Ideal)) (launchContents m' c) (Proc.devRef .tc Cert.ReferenceIdeal.main_v59) := by
  read_both_folds
  rw [show launchContents m' c (Proc.devRef .tc Cert.ReferenceIdeal.main_arg1) = m (c, Proc.devRef .tc Cert.KernelIdeal.main_arg1) from h1,
    show launchContents m' c (Proc.devRef .tc Cert.ReferenceIdeal.main_arg0) = m (c, Proc.devRef .tc Cert.KernelIdeal.main_arg0) from h0]
  rfl

attribute [local irreducible] Host.gather Host.scatter in
set_option maxHeartbeats 4000000 in
/-- The pair radius of every edge. -/
theorem pairRadius
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v75 : FVec Ideal Cert.KernelIdeal.S6400000 .f32)
      = after (Cert.ReferenceIdeal.HostRun.opsA (F := Ideal)) (launchContents m' c) (Proc.devRef .tc Cert.ReferenceIdeal.main_v75) := by
  read_both_folds
  rw [show launchContents m' c (Proc.devRef .tc Cert.ReferenceIdeal.main_arg1) = m (c, Proc.devRef .tc Cert.KernelIdeal.main_arg1) from h1,
    show launchContents m' c (Proc.devRef .tc Cert.ReferenceIdeal.main_arg0) = m (c, Proc.devRef .tc Cert.KernelIdeal.main_arg0) from h0]
  rfl

end Cert.SharedInputs

end
-- ==== Proof.lean ====
/-
  The certificate of the dispersion kernel against its jnp reference, over the extended reals.

  Both programs turn the atomic numbers and the edge list into, per edge, a pair coefficient `C6_ij` and a pair
  radius `R_ij` (host operations, the same in both), compute from them and the edge length the halved, damped and
  cut-off pair energy of the edge, and add each edge's energy onto its receiver node.  The kernel program does the
  middle step in one pallas_call over the three per-edge arrays laid out as 50000 rows of 128 edges, ten blocks of
  5000 rows; the reference does it by whole-array host operations.

  * The three frames: the two kernel programs' are generated whole; the reference's is its run with the result
    dropped.
  * `preserves`: the idealization rewrote nothing, so there is nothing to state.
  * `algebraic`: the kernel program ends with the scatter of `e ↦ kernelEnergy (C6 e) (R e) (len e)` (its region's
    blocks cover the array, block `t` holding the body's pointwise function of the inputs' blocks `t`; reshaping to
    rows and back is the identity), the reference with the scatter of `e ↦ referenceEnergy (C6 e) (R e) (len e)`.
    The two per-edge functions are equal on all extended reals (`Cert.Edge.kernelEnergy_eq`: the only real difference,
    fourteen-fold product against the power function at a `⊥` ratio, is swallowed by the damping factor), the
    prepared arrays are the same functions of the arguments (`Cert.SharedInputs`), and the scatters are one
    operation.  No finiteness of the lengths is used.
-/
import proofs.«401150_j84207128805710_3_alg».proof.Defs
import proofs.«401150_j84207128805710_3_alg».proof.Proof.Gen.Kernel
import proofs.«401150_j84207128805710_3_alg».proof.Proof.Gen.Kernel.Frame
import proofs.«401150_j84207128805710_3_alg».proof.Proof.Gen.KernelIdeal
import proofs.«401150_j84207128805710_3_alg».proof.Proof.Gen.KernelIdeal.Frame
import proofs.«401150_j84207128805710_3_alg».proof.Proof.Gen.ReferenceIdeal
import proofs.«401150_j84207128805710_3_alg».proof.Proof.Gen.Pre_finite_inputs
import proofs.«401150_j84207128805710_3_alg».proof.Proof.EdgeEnergy
import proofs.«401150_j84207128805710_3_alg».proof.Proof.KernelValue
import proofs.«401150_j84207128805710_3_alg».proof.Proof.RefResult
import proofs.«401150_j84207128805710_3_alg».proof.Proof.SharedInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HostRun.result m ρ)

theorem preserves : Cert.preserves_Kernel_KernelIdeal := trivial

/-- The scatter onto the receivers is one operation in both programs. -/
theorem scatter_eq (recv : IVec Cert.KernelIdeal.S6400000 32) (upd : FVec Ideal Cert.KernelIdeal.S6400000 .f32) :
    Cert.KernelIdeal.EdgeValue.tail recv upd
      = Cert.ReferenceIdeal.HostRun.scatterEdges (F := Ideal)
          (broadcastInDim Cert.ReferenceIdeal.S100000 ![] Cert.ReferenceIdeal.Gen.bcast_S_S100000 (constant Cert.ReferenceIdeal.S_ .f32 0x00000000#32))
          recv upd := rfl

theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun r h c => ⟨(h c).1.trans ?_, (h c).2⟩)
    (Cert.ReferenceIdeal.HostRun.result m' ρ')
  rw [scatter_eq, Cert.SharedInputs.receivers m m' c (hagree c).2.1,
    Cert.SharedInputs.pairCoefficient m m' c (hagree c).1 (hagree c).2.1,
    Cert.SharedInputs.pairRadius m m' c (hagree c).1 (hagree c).2.1, (hagree c).2.2]
  simp only [Cert.Edge.kernelEnergy_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
